-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32000x4096 : Shape := ⟨2, ![32000, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v8 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v8 main_v17
  main_v18

def fn {F : FTy → Type} [FloatOps F] (main_arg0 : FVec F S8192x4096 .f32) (main_arg1 : FVec F S32000x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S8192 32 := broadcastInDim S8192 ![] bcast_S_S8192 main_c_2
  let main_v10 : IVec S8192 1 := cmpi .eq main_arg2 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 32000#32
  let main_v13 : IVec S8192 32 := broadcastInDim S8192 ![] bcast_S_S8192 main_c_4
  let main_v14 : IVec S8192 1 := cmpi .slt main_arg2 main_v13
  let main_v15 : IVec S8192 1 := andi main_v12 main_v14
  let main_v16 : IVec S8192 1 := ori main_v10 main_v15
  fn_part1 (F := F) main_v8 main_v16
-- ==== Kernel.lean ====
abbrev S8192x4096 : Shape := ⟨2, ![8192, 4096]⟩
abbrev S32000x4096 : Shape := ⟨2, ![32000, 4096]⟩
abbrev S8192 : Shape := ⟨1, ![8192]⟩
abbrev S8192x1 : Shape := ⟨2, ![8192, 1]⟩
abbrev S512x4096 : Shape := ⟨2, ![512, 4096]⟩
abbrev S640x4096 : Shape := ⟨2, ![640, 4096]⟩
abbrev S512x1 : Shape := ⟨2, ![512, 1]⟩
abbrev S512x640 : Shape := ⟨2, ![512, 640]⟩
abbrev S512 : Shape := ⟨1, ![512]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x4096, .bf16⟩
  | .hbm, ⟨4, _⟩ => ⟨S8192x1, .i32⟩
  | .hbm, ⟨5, _⟩ => ⟨S8192x1, .f32⟩
  | .hbm, ⟨6, _⟩ => ⟨S8192, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x4096, .bf16⟩
  | .local _ .vmem, ⟨1, _⟩ => ⟨S640x4096, .f32⟩
  | .local _ .vmem, ⟨2, _⟩ => ⟨S640x4096, .f32⟩
  | .local _ .vmem, ⟨3, _⟩ => ⟨S512x1, .i32⟩
  | .local _ .vmem, ⟨4, _⟩ => ⟨S512x1, .i32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 50], ![false, false]⟩

def k0_cond2 (i : grid0.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S640x4096_S640x4096_0_0 : ∀ a, (![0, 0] : Fin 2 → Nat) a + S640x4096.size a ≤ S640x4096.size a
  h_S640x4096 : 0 < S640x4096.numel
  iota_S512x640_d1_w32 : S512x640.Iotas .tc 32 [1]
  broadcasts_S512x1_S512x640 : S512x1.Broadcasts S512x640
  reduces_S512x640_S512 : S512x640.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S512x4096_S640x4096_S512x640_1_1_0_0_n_n_wf : DotDims.WF S512x4096 S640x4096 S512x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .f32 = 32 ∨ (Rect.block (s := S32000x4096) S640x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x4096_S640x4096_S512x640_1_1_0_0_n_n : DotDims S512x4096 S640x4096 S512x640 where
  lhsContracting := [1]
  rhsContracting := [1]
  lhsNonContracting := [0]
  rhsNonContracting := [0]
  lhsBatch := []
  rhsBatch := []
  wf := dot_S512x4096_S640x4096_S512x640_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S32000x4096 : Shape := ⟨2, ![32000, 4096]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x32000, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S8192x1x1, .i32⟩
  | .hbm, ⟨35, _⟩ => ⟨S1, .i32⟩
  | .hbm, ⟨36, _⟩ => ⟨S_, .i32⟩
  | .hbm, ⟨37, _⟩ => ⟨S8192x1x1, .i32⟩
  | .hbm, ⟨38, _⟩ => ⟨S8192x1x1, .i1⟩
  | .hbm, ⟨39, _⟩ => ⟨S1x1x1, .i32⟩
  | .hbm, ⟨40, _⟩ => ⟨S8192x1x1, .i32⟩
  | .hbm, ⟨41, _⟩ => ⟨S8192x1x1, .i1⟩
  | .hbm, ⟨42, _⟩ => ⟨S8192x1x1, .i1⟩
  | .hbm, ⟨43, _⟩ => ⟨S_, .i1⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_v9 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x4096_S32000x4096_S8192x32000_1_1_0_0_n_n_wf : DotDims.WF S8192x4096 S32000x4096 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x4096_S32000x4096_S8192x32000_1_1_0_0_n_n : DotDims S8192x4096 S32000x4096 S8192x32000 where
  lhsContracting := [1]
  rhsContracting := [1]
  lhsNonContracting := [0]
  rhsNonContracting := [0]
  lhsBatch := []
  rhsBatch := []
  wf := dot_S8192x4096_S32000x4096_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.PreDecode.lean ====
/-
  What the precondition says, decoded: every activation and every weight is a finite real, and every
  target is either the ignored label `-100` (the word `4294967196`) or a column of the vocabulary
  (`0 ≤ target < 32000`, read as a signed word; equivalently the unsigned value is below 32000).
-/
import proofs.«418497_j11922829213914_3_alg».proof.Pre_finite_inputs
import proofs.«418497_j11922829213914_3_alg».proof.Proof.LibReal
import Idealize.ShloMosaic.Lib.ReduceAll
import Idealize.ShloMosaic.Lib.ValueIdx
import Idealize.ShloMosaic.Lib.StableHlo.Predicate

noncomputable section

namespace Cert.PreDecode

open Idealize.ShloMosaic Cert.LibReal

/-- The scalar shape has one index. -/
instance : Subsingleton Cert.Pre_finite_inputs.S_.Idx := ⟨fun a b => funext fun d => d.elim0⟩

/-- A value whose absolute value compares below the word of `+∞` is a finite real. -/
theorem isReal_of_cmpf (a : Ideal .f32)
    (h : FloatOps.cmpf .olt (FloatOps.hostAbsf a) (FloatOps.ofBits (F := Ideal) .f32 0x7F800000#32) = 1#1) :
    IsReal (a : EReal) := by
  apply isReal_of_abs_lt_top
  have h' : Ideal.cmp .olt (Max.max (a : EReal) (-(a : EReal))) (Ideal.ofBits .f32 0x7F800000#32) = 1#1 := h
  rw [ofBits_pos_inf] at h'
  unfold Ideal.cmp at h'
  rw [StableHlo.Predicate.ofBool_eq_one_iff] at h'
  exact of_decide_eq_true h'

/-- A signed word in `[0, 32000)` has unsigned value below 32000. -/
theorem toNat_lt_of_signed (v : BitVec 32) (h0 : IntOp.cmpi .sge v 0#32 = 1#1)
    (h1 : IntOp.cmpi .slt v 32000#32 = 1#1) : v.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have h32 := v.isLt
  rw [BitVec.toInt_eq_toNat_cond] at h0 h1
  split at h0 <;> omega

/-- The precondition, all ones, gives finite inputs and targets in the label range. -/
theorem of_pre [Cert.Pre_finite_inputs.Facts]
    (x : FVec Ideal Cert.Pre_finite_inputs.S8192x4096 .f32) (w : FVec Ideal Cert.Pre_finite_inputs.S32000x4096 .f32)
    (t : IVec Cert.Pre_finite_inputs.S8192 32)
    (h : Cert.Pre_finite_inputs.fn (F := Ideal) x w t = fun _ => 1#1) :
    (∀ i, IsReal (x i)) ∧ (∀ i, IsReal (w i)) ∧ (∀ j, t j = 4294967196#32 ∨ (t j).toNat < 32000) := by
  have e := congrFun h ValueIdx.ix0
  unfold Cert.Pre_finite_inputs.fn Cert.Pre_finite_inputs.fn_part1 at e
  dsimp only at e
  unfold andi at e
  rw [IntOp.andi_eq_one, IntOp.andi_eq_one] at e
  obtain ⟨⟨hx, hw⟩, ht⟩ := e
  refine ⟨fun i => ?_, fun i => ?_, fun j => ?_⟩
  · exact isReal_of_cmpf (x i) (Host.reduce_andi_all _ _ _ _ _ hx i)
  · exact isReal_of_cmpf (w i) (Host.reduce_andi_all _ _ _ _ _ hw i)
  · have hj := Host.reduce_andi_all _ _ _ _ _ ht j
    simp only [ori, andi, cmpi, broadcastInDim, constantI] at hj
    rw [IntOp.ori_eq_one, IntOp.andi_eq_one, IntOp.cmpi_eq] at hj
    rcases hj with hj | ⟨h0, h1⟩
    · exact Or.inl hj
    · exact Or.inr (toNat_lt_of_signed (t j) h0 h1)

end Cert.PreDecode

end
-- ==== Proof.KPieces.lean ====
/-
  What one grid point leaves in the three carried buffers (running maximum, running sum of shifted
  exponentials, running picked logit) and, at a row block's last point, in the output block: each is the
  body's arithmetic (the skeleton's payload terms) applied to the point's input blocks and to what the
  buffers held before the point — the reset values at a row block's first point.
-/
import proofs.«418497_j11922829213914_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The zero offsets of a rank-two block, spelt out. -/
theorem zero_off_S512x1 : (![0, 0] : Fin S512x1.rank → ℕ) = fun _ => 0 := by
  funext a; fin_cases a <;> rfl

/-- The same at the shape of the activations block. -/
theorem zero_off_S512x4096 : (![0, 0] : Fin S512x4096.rank → ℕ) = fun _ => 0 := by
  funext a; fin_cases a <;> rfl

/-- The same at the shape of the weights block. -/
theorem zero_off_S640x4096 : (![0, 0] : Fin S640x4096.rank → ℕ) = fun _ => 0 := by
  funext a; fin_cases a <;> rfl

/-- At a row block's first point the running maximum is taken over the reset value `-∞`. -/
theorem sout0_A_0_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S640x4096 .f32) (x2 : Vec F S512x1 .i32) :
    sout0_A_0 c i arg2 harg2 arg3 harg3 arg4 harg4 arg5 harg5 arg6 harg6 arg7 harg7 arg8 harg8 hc0 hc1 x0 x1 x2 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

/-- … the running sum over the reset value `0`, rescaled by `e^(-∞ - new max)`. -/
theorem sout0_A_1_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S640x4096 .f32) (x2 : Vec F S512x1 .i32) :
    sout0_A_1 c i arg2 harg2 arg3 harg3 arg4 harg4 arg5 harg5 arg6 harg6 arg7 harg7 arg8 harg8 hc0 hc1 x0 x1 x2 = k0_pay1 (k0_pay10 x0 x1 k0_pay4 k0_pay4) (k0_pay11 x0 x1 k0_pay4) k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

/-- … and the picked logit over the reset value `0`. -/
theorem sout0_A_2_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S640x4096 .f32) (x2 : Vec F S512x1 .i32) :
    sout0_A_2 c i arg2 harg2 arg3 harg3 arg4 harg4 arg5 harg5 arg6 harg6 arg7 harg7 arg8 harg8 hc0 hc1 x0 x1 x2 = k0_pay8 i x0 x1 x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

/-- At a middle point the three running values are updated from what the point before left. -/
theorem sout0_B_0_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S640x4096 .f32) (x2 : Vec F S512x1 .i32) (xs0 xs1 xs2 : Vec F S512x1 .f32) :
    sout0_B_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

theorem sout0_B_1_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S640x4096 .f32) (x2 : Vec F S512x1 .i32) (xs0 xs1 xs2 : Vec F S512x1 .f32) :
    sout0_B_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

theorem sout0_B_2_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S640x4096 .f32) (x2 : Vec F S512x1 .i32) (xs0 xs1 xs2 : Vec F S512x1 .f32) :
    sout0_B_2 c i arg2 harg2 arg3 harg3 arg4 harg4 arg5 harg5 arg6 harg6 arg7 harg7 arg8 harg8 hc0 hc1 x0 x1 x2 xs0 xs1 xs2 = k0_pay8 i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

/-- At a row block's last point the same updates … -/
theorem sout0_C_0_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S640x4096 .f32) (x2 : Vec F S512x1 .i32) (xs0 xs1 xs2 : Vec F S512x1 .f32) :
    sout0_C_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

theorem sout0_C_1_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S640x4096 .f32) (x2 : Vec F S512x1 .i32) (xs0 xs1 xs2 : Vec F S512x1 .f32) :
    sout0_C_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

theorem sout0_C_2_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S640x4096 .f32) (x2 : Vec F S512x1 .i32) (xs0 xs1 xs2 : Vec F S512x1 .f32) :
    sout0_C_2 c i arg2 harg2 arg3 harg3 arg4 harg4 arg5 harg5 arg6 harg6 arg7 harg7 arg8 harg8 hc0 hc1 x0 x1 x2 xs0 xs1 xs2 = k0_pay8 i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

/-- … and the output block is `max + log(sum) - picked` of the UPDATED values. -/
theorem out0_C_3_eq (c : Dev nD) (i : grid0.Coords) (arg2 : Memref sig .tc .vmem S512x4096 .bf16) (harg2 : arg2.IsWhole) (arg3 : Memref sig .tc .vmem S640x4096 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S640x4096 .f32) (x2 : Vec F S512x1 .i32) (xs0 xs1 xs2 : Vec F S512x1 .f32) :
    out0_C_3 c i arg2 harg2 arg3 harg3 arg4 harg4 arg5 harg5 arg6 harg6 arg7 harg7 arg8 harg8 hc0 hc1 x0 x1 x2 xs0 xs1 xs2 = k0_pay3 (k0_pay2 (k0_pay9 x0 x1 xs0)) (k0_pay1 (k0_pay10 x0 x1 xs0 xs0) (k0_pay11 x0 x1 xs0) xs1) (k0_pay8 i x0 x1 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S512x1) zero_off_S512x1]
  simp only [View.readAt_eq_ld, harg2.read_unread, harg3.read_unread, harg4.read_unread, harg6.read_unread,
    harg7.read_unread, harg8.read_unread, View.readCov_unit_zero (S := S512x1) _ zero_off_S512x1,
    View.ld_unit_zero (S := S512x4096) zero_off_S512x4096, View.ld_unit_zero (S := S640x4096) zero_off_S640x4096,
    View.ld_unit_zero (S := S512x1) zero_off_S512x1]

end Cert.KernelIdeal.Gen

end
-- ==== Proof.Softmax.lean ====
/-
  Online softmax over a row of logits, on the extended reals.

  A row of logits is a sequence `S : ℕ → EReal` whose first `N` entries are finite reals. Reading the
  row block by block one keeps three running quantities over the entries seen so far: their maximum
  (from -∞), the sum of the exponentials of the entries shifted by that maximum, and the sum of the
  entries sitting at one marked column. This module names the three as functions of the number of
  entries read (`prefMax`, `prefExpSum`, `prefPick`), shows how each passes from `n` entries to
  `n + B` entries when a block of `B` more is read (the rescaling law
  `e^(M - M') · Σ e^(s - M) = Σ e^(s - M')` of finite reals), and shows that after the whole row
  `max + log(sum) - picked` is the negated log-softmax at the marked column.
-/
import Idealize.ShloMosaic.PureOps.Ideal
import Idealize.ShloMosaic.PureOps.Ideal.Laws
import proofs.«418497_j11922829213914_3_alg».proof.Proof.LibReal
import Mathlib.Data.EReal.Operations
import Mathlib.Data.Finset.Fold
import Mathlib.Algebra.BigOperators.Intervals
import Mathlib.Algebra.BigOperators.Fin
import Mathlib.Analysis.SpecialFunctions.Exp
import Mathlib.Analysis.SpecialFunctions.Log.Basic

noncomputable section

namespace Cert.Softmax

open Idealize.ShloMosaic Cert.LibReal
open scoped BigOperators

/-- The maximum, from -∞, of the first `n` entries of the row. -/
def prefMax (S : ℕ → EReal) (n : ℕ) : EReal := (Finset.range n).fold max ⊥ S

/-- The sum over the first `n` entries of `e^(entry - their maximum)`. -/
def prefExpSum (S : ℕ → EReal) (n : ℕ) : EReal := ∑ v ∈ Finset.range n, Ideal.exp (S v - prefMax S n)

/-- The sum over the first `n` entries of the entry at the marked column `tgt` (zero elsewhere). -/
def prefPick (S : ℕ → EReal) (tgt : ℕ) (n : ℕ) : EReal := ∑ v ∈ Finset.range n, if v = tgt then S v else 0

theorem prefMax_zero (S : ℕ → EReal) : prefMax S 0 = ⊥ := by
  rw [prefMax, Finset.range_zero, Finset.fold_empty]

theorem prefExpSum_zero (S : ℕ → EReal) : prefExpSum S 0 = 0 := by
  rw [prefExpSum, Finset.range_zero, Finset.sum_empty]

theorem prefPick_zero (S : ℕ → EReal) (tgt : ℕ) : prefPick S tgt 0 = 0 := by
  rw [prefPick, Finset.range_zero, Finset.sum_empty]

/-- A fold over the first `N` naturals is the fold over `Fin N` of the same function read at the value. -/
theorem fold_range_eq_fold_fin (f : ℕ → EReal) (N : ℕ) :
    (Finset.range N).fold max ⊥ f = (Finset.univ : Finset (Fin N)).fold max ⊥ (fun v => f v.val) := by
  have h : Finset.range N = (Finset.univ : Finset (Fin N)).map Fin.valEmbedding := by
    ext x
    constructor
    · intro hx
      exact Finset.mem_map.mpr ⟨⟨x, Finset.mem_range.mp hx⟩, Finset.mem_univ _, rfl⟩
    · intro hx
      obtain ⟨a, _, rfl⟩ := Finset.mem_map.mp hx
      exact Finset.mem_range.mpr a.isLt
  rw [h, Finset.fold_map]
  rfl

/-- A fold of the maximum over the first `n + B` naturals splits into the first `n` and the next `B`. -/
theorem fold_range_add (f : ℕ → EReal) (n B : ℕ) :
    (Finset.range (n + B)).fold max ⊥ f
      = max ((Finset.range n).fold max ⊥ f) ((Finset.range B).fold max ⊥ (fun q => f (n + q))) := by
  induction B with
  | zero => rw [Nat.add_zero, Finset.range_zero, Finset.fold_empty, max_eq_left bot_le]
  | succ B ih =>
    rw [← Nat.add_assoc, Finset.range_add_one, Finset.fold_insert Finset.notMem_range_self, ih,
      Finset.range_add_one, Finset.fold_insert Finset.notMem_range_self, max_left_comm]

/-- The prefix maximum as a fold over `Fin N`. -/
theorem prefMax_eq_fold_fin (S : ℕ → EReal) (N : ℕ) :
    prefMax S N = (Finset.univ : Finset (Fin N)).fold max ⊥ (fun v => S v.val) := by
  rw [prefMax, fold_range_eq_fold_fin]

/-- Reading a block of `B` more entries: the new maximum is the larger of the old one and the block's. -/
theorem prefMax_step (S : ℕ → EReal) (n B : ℕ) :
    prefMax S (n + B) = max (prefMax S n) ((Finset.univ : Finset (Fin B)).fold max ⊥ (fun q => S (n + q.val))) := by
  rw [prefMax, prefMax, fold_range_add, fold_range_eq_fold_fin (fun q => S (n + q)) B]

/-- The maximum of a nonempty prefix of finite reals is a finite real. -/
theorem prefMax_isReal (S : ℕ → EReal) (n : ℕ) (hn : 0 < n) (hS : ∀ v < n, IsReal (S v)) : IsReal (prefMax S n) := by
  rw [prefMax]
  exact IsReal.fold_max (Finset.range n) (Finset.nonempty_range_iff.mpr hn.ne') S
    (fun i hi => hS i (Finset.mem_range.mp hi))

/-- The shifted exponential sum of a prefix of finite reals is a finite real (zero for the empty prefix). -/
theorem prefExpSum_isReal (S : ℕ → EReal) (n : ℕ) (hS : ∀ v < n, IsReal (S v)) : IsReal (prefExpSum S n) := by
  rw [prefExpSum]
  refine IsReal.sum _ _ (fun v hv => ?_)
  have hv' : v < n := Finset.mem_range.mp hv
  exact ((hS v hv').sub (prefMax_isReal S n (Nat.lt_of_le_of_lt (Nat.zero_le v) hv') hS)).exp

/-- The rescaling law on finite reals: `Σ e^(s - m') = e^(m - m') · Σ e^(s - m)`. -/
theorem sum_exp_rescale (S : ℕ → EReal) (n : ℕ) (m m' : ℝ) (hS : ∀ v < n, IsReal (S v)) :
    ∑ v ∈ Finset.range n, Ideal.exp (S v - (m' : EReal))
      = Ideal.exp ((m : EReal) - (m' : EReal)) * ∑ v ∈ Finset.range n, Ideal.exp (S v - (m : EReal)) := by
  have h1 : ∀ (c : ℝ), ∀ v ∈ Finset.range n,
      Ideal.exp (S v - (c : EReal)) = ((Real.exp ((S v).toReal - c) : ℝ) : EReal) := by
    intro c v hv
    obtain ⟨r, hr⟩ := hS v (Finset.mem_range.mp hv)
    rw [hr, EReal.toReal_coe, ← EReal.coe_sub, Ideal.exp_coe]
  rw [sum_eq_coe_sum _ _ _ (h1 m'), sum_eq_coe_sum _ _ _ (h1 m), ← EReal.coe_sub, Ideal.exp_coe,
    ← EReal.coe_mul, Finset.mul_sum]
  congr 1
  refine Finset.sum_congr rfl (fun v _ => ?_)
  rw [← Real.exp_add]
  congr 1
  ring

/-- Reading a block of `B ≥ 1` more entries: the old sum is rescaled by `e^(old max - new max)` (which is
    `e^(-∞) = 0` against the empty sum `0` when nothing was read before) and the block's shifted exponentials are added. -/
theorem prefExpSum_step (S : ℕ → EReal) (n B : ℕ) (hB : 0 < B) (hS : ∀ v < n + B, IsReal (S v)) :
    prefExpSum S (n + B)
      = Ideal.exp (prefMax S n - prefMax S (n + B)) * prefExpSum S n
        + ∑ q : Fin B, Ideal.exp (S (n + q.val) - prefMax S (n + B)) := by
  obtain ⟨m', hm'⟩ := prefMax_isReal S (n + B) (Nat.lt_of_lt_of_le hB (Nat.le_add_left B n)) hS
  have hsplit : prefExpSum S (n + B)
      = ∑ v ∈ Finset.range n, Ideal.exp (S v - prefMax S (n + B))
        + ∑ q : Fin B, Ideal.exp (S (n + q.val) - prefMax S (n + B)) := by
    rw [prefExpSum, Finset.sum_range_add,
      Fin.sum_univ_eq_sum_range (fun v => Ideal.exp (S (n + v) - prefMax S (n + B))) B]
  rw [hsplit]
  congr 1
  rcases Nat.eq_zero_or_pos n with rfl | hn
  · rw [prefExpSum_zero, mul_zero, Finset.range_zero, Finset.sum_empty]
  · have hS' : ∀ v < n, IsReal (S v) := fun v hv => hS v (Nat.lt_of_lt_of_le hv (Nat.le_add_right n B))
    obtain ⟨m, hm⟩ := prefMax_isReal S n hn hS'
    rw [hm', prefExpSum, hm]
    exact sum_exp_rescale S n m m' hS'

/-- Reading a block of `B` more entries adds the block's marked entries. -/
theorem prefPick_step (S : ℕ → EReal) (tgt n B : ℕ) :
    prefPick S tgt (n + B) = prefPick S tgt n + ∑ q : Fin B, (if n + q.val = tgt then S (n + q.val) else 0) := by
  rw [prefPick, prefPick, Finset.sum_range_add,
    Fin.sum_univ_eq_sum_range (fun v => if n + v = tgt then S (n + v) else 0) B]

/-- After the whole row the marked column, if it lies in the row, has been met once. -/
theorem prefPick_full (S : ℕ → EReal) (tgt N : ℕ) (ht : tgt < N) : prefPick S tgt N = S tgt := by
  rw [prefPick, Finset.sum_ite_eq', if_pos (Finset.mem_range.mpr ht)]

/-- The shifted exponential sum of the whole row as a sum over `Fin N`. -/
theorem prefExpSum_eq_sum_fin (S : ℕ → EReal) (N : ℕ) :
    prefExpSum S N = ∑ v : Fin N, Ideal.exp (S v.val - prefMax S N) := by
  rw [prefExpSum, Fin.sum_univ_eq_sum_range (fun v => Ideal.exp (S v - prefMax S N)) N]

/-- THE LAW. For a row of `N ≥ 1` finite reals and a marked column inside it,
    `max + log (Σ e^(s - max)) - s_tgt = -((s_tgt - max) - log (Σ e^(s - max)))` on the extended reals. -/
theorem nll_law (S : ℕ → EReal) (N : ℕ) (hN : 0 < N) (hS : ∀ v < N, IsReal (S v)) (tgt : ℕ) (ht : tgt < N) :
    (prefMax S N + Ideal.log (prefExpSum S N)) - prefPick S tgt N
      = -((S tgt - prefMax S N) - Ideal.log (prefExpSum S N)) := by
  obtain ⟨m, hm⟩ := prefMax_isReal S N hN hS
  obtain ⟨st, hst⟩ := hS tgt ht
  have hpos : IsPosReal (prefExpSum S N) := by
    rw [prefExpSum]
    refine IsPosReal.sum _ (Finset.nonempty_range_iff.mpr hN.ne') _ (fun v hv => ?_)
    exact ((hS v (Finset.mem_range.mp hv)).sub ⟨m, hm⟩).exp_pos
  obtain ⟨L, hL, hLe⟩ := hpos
  rw [prefPick_full S tgt N ht, hm, hLe, hst, Ideal.log_coe, if_neg (not_le.mpr hL),
    ← EReal.coe_add, ← EReal.coe_sub, ← EReal.coe_sub, ← EReal.coe_sub, ← EReal.coe_neg]
  congr 1
  ring

end Cert.Softmax

end
-- ==== Proof.KStep.lean ====
/-
  One grid point of the kernel, row by row, at the ideal values.

  At a point the body holds a block of 512 rows of activations `xb`, a block of 640 vocabulary rows of
  weights `wb` and the 512 rows' targets `tb`; entry `(r, q)` of the block of logits is
  `Σₖ xb[r,k] · wb[q,k]`. If these 640 logits of row `r` are entries `n … n + 639` of a row sequence `S`
  (`n = 640 · (the point's second coordinate)`), and the three carried buffers hold at row `r` the prefix
  maximum, the prefix sum of shifted exponentials and the prefix picked logit of `S` after `n` entries,
  then the body's payload terms compute, at row `r`, the same three prefix quantities after `n + 640` entries.
  The reset values are `-∞`, `0`, `0`, and the output value is `max + log(sum) - picked`.
-/
import proofs.«418497_j11922829213914_3_alg».proof.Proof.Gen.KernelIdeal.Skeleton
import proofs.«418497_j11922829213914_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Idealize.ShloMosaic Idealize.ShloMosaic.ValueIdx Cert.KernelIdeal Cert.KernelIdeal.Gen Cert.Softmax Cert.LibReal
open scoped BigOperators

/-! ## The contraction's operand indices -/

/-- The left operand's row is the output's row. -/
theorem lhs_pay7_0 (i : S512x640.Idx) (q : dot_S512x4096_S640x4096_S512x640_1_1_0_0_n_n.contr.Idx) :
    (dot_S512x4096_S640x4096_S512x640_1_1_0_0_n_n.lhsIdx i q 0).val = (i 0).val := by
  unfold DotDims.lhsIdx
  rw [dif_neg (show ¬(0 : Fin S512x4096.rank) ∈ dot_S512x4096_S640x4096_S512x640_1_1_0_0_n_n.lhsBatch by decide), dif_pos (show (0 : Fin S512x4096.rank) ∈ dot_S512x4096_S640x4096_S512x640_1_1_0_0_n_n.lhsNonContracting by decide)]
  rfl
/-- The left operand's column is the contraction coordinate. -/
theorem lhs_pay7_1 (i : S512x640.Idx) (q : dot_S512x4096_S640x4096_S512x640_1_1_0_0_n_n.contr.Idx) :
    (dot_S512x4096_S640x4096_S512x640_1_1_0_0_n_n.lhsIdx i q 1).val = (q ⟨0, by decide⟩).val :=
  dot_S512x4096_S640x4096_S512x640_1_1_0_0_n_n.lhsIdx_val_of_single rfl i q
/-- The right operand's row is the output's column. -/
theorem rhs_pay7_0 (i : S512x640.Idx) (q : dot_S512x4096_S640x4096_S512x640_1_1_0_0_n_n.contr.Idx) :
    (dot_S512x4096_S640x4096_S512x640_1_1_0_0_n_n.rhsIdx i q 0).val = (i 1).val := by
  unfold DotDims.rhsIdx
  rw [dif_neg (show ¬(0 : Fin S640x4096.rank) ∈ dot_S512x4096_S640x4096_S512x640_1_1_0_0_n_n.rhsBatch by decide), dif_pos (show (0 : Fin S640x4096.rank) ∈ dot_S512x4096_S640x4096_S512x640_1_1_0_0_n_n.rhsNonContracting by decide)]
  rfl
/-- The right operand's column is the contraction coordinate. -/
theorem rhs_pay7_1 (i : S512x640.Idx) (q : dot_S512x4096_S640x4096_S512x640_1_1_0_0_n_n.contr.Idx) :
    (dot_S512x4096_S640x4096_S512x640_1_1_0_0_n_n.rhsIdx i q 1).val = (q ⟨0, by decide⟩).val :=
  dot_S512x4096_S640x4096_S512x640_1_1_0_0_n_n.rhsIdx_val_of_single rfl i q

/-- The block of logits at `(r, q)` is the inner product of activation row `r` and weight row `q`. -/
theorem logits_apply (xb : Vec Ideal S512x4096 .bf16) (wb : Vec Ideal S640x4096 .f32) (r : Fin 512) (q : Fin 640) :
    k0_pay7 (F := Ideal) xb wb (ix2 r q) = ∑ k : Fin 4096, xb (ix2 r k) * wb (ix2 q k) := by
  unfold k0_pay7
  rw [shapeCast_self]
  refine (Ideal.matmul_constant_zero_apply dot_S512x4096_S640x4096_S512x640_1_1_0_0_n_n none _ _ _).trans ?_
  rw [← Equiv.sum_comp (ValueIdx.contrEquiv1 dot_S512x4096_S640x4096_S512x640_1_1_0_0_n_n 4096 rfl rfl).symm]
  refine Finset.sum_congr rfl fun k _ => ?_
  have hk := ValueIdx.contrEquiv1_symm_val dot_S512x4096_S640x4096_S512x640_1_1_0_0_n_n 4096 rfl rfl k
  have el : dot_S512x4096_S640x4096_S512x640_1_1_0_0_n_n.lhsIdx (ix2 r q) ((ValueIdx.contrEquiv1 dot_S512x4096_S640x4096_S512x640_1_1_0_0_n_n 4096 rfl rfl).symm k) = ix2 r k := funext fun a => Fin.ext (by
    match a with
    | ⟨0, _⟩ => exact lhs_pay7_0 _ _
    | ⟨1, _⟩ => exact (lhs_pay7_1 _ _).trans hk)
  have er : dot_S512x4096_S640x4096_S512x640_1_1_0_0_n_n.rhsIdx (ix2 r q) ((ValueIdx.contrEquiv1 dot_S512x4096_S640x4096_S512x640_1_1_0_0_n_n 4096 rfl rfl).symm k) = ix2 q k := funext fun a => Fin.ext (by
    match a with
    | ⟨0, _⟩ => exact rhs_pay7_0 _ _
    | ⟨1, _⟩ => exact (rhs_pay7_1 _ _).trans hk)
  rw [el, er]
  rfl

/-! ## Layout operations and row reductions at an index -/

section Layout
variable {α : Type}

/-- A column of 512 entries read as a 512 × 1 array: entry `(r, 0)` is entry `r`. -/
theorem keepdims_apply (v : S512.Idx → α) (r : Fin 512) :
    shapeCast S512x1 v shapeCasts_S512_S512x1 (ix2 r (0 : Fin 1)) = v (ix1 r) :=
  shapeCast_apply v shapeCasts_S512_S512x1 (ix2 r (0 : Fin 1)) (ix1 r) (by
    rw [Shape.rowMajor_val_two, Shape.rowMajor_val_one]
    show r.val = r.val * 1 + 0
    omega)

/-- A 512 × 1 array spread along its rows: entry `(r, q)` is entry `(r, 0)`. -/
theorem rowBroadcast_apply (v : S512x1.Idx → α) (r : Fin 512) (q : Fin 640) :
    broadcastTo S512x640 v broadcasts_S512x1_S512x640 (ix2 r q) = v (ix2 r (0 : Fin 1)) := by
  refine broadcastTo_apply v broadcasts_S512x1_S512x640 (ix2 r q) (ix2 r (0 : Fin 1)) fun ax => ?_
  match ax with
  | ⟨0, _⟩ => rfl
  | ⟨1, _⟩ => rfl

/-- The index of row `r` with the column `q` put back. -/
theorem lift_row (r : Fin 512) (q : Fin 640) :
    reduces_S512x640_S512.lift (ix1 r) q = ix2 r q := by
  funext a
  match a with
  | ⟨0, _⟩ => rfl
  | ⟨1, _⟩ => rfl

/-- The sum along a row, kept as a 512 × 1 array. -/
theorem rowSum_apply (v : FVec Ideal S512x640 .f32) (r : Fin 512) :
    shapeCast S512x1 (multiReduction (F := Ideal) .add [1] S512 v 0x00000000#32 reduces_S512x640_S512 (.inl rfl) rfl)
      shapeCasts_S512_S512x1 (ix2 r (0 : Fin 1)) = ∑ q : Fin 640, v (ix2 r q) := by
  refine (keepdims_apply _ r).trans ?_
  refine (Ideal.multiReduction_add_single v _ reduces_S512x640_S512 _ _ (ix1 r)).trans ?_
  refine Finset.sum_congr rfl fun q _ => ?_
  exact congrArg v (lift_row r q)

/-- The maximum along a row, from `-∞`, kept as a 512 × 1 array. -/
theorem rowMax_apply (v : FVec Ideal S512x640 .f32) (r : Fin 512) :
    shapeCast S512x1 (multiReduction (F := Ideal) .maximumf [1] S512 v 0xFF800000#32 reduces_S512x640_S512 (.inl rfl) rfl)
      shapeCasts_S512_S512x1 (ix2 r (0 : Fin 1)) = (Finset.univ : Finset (Fin 640)).fold max ⊥ (fun q => v (ix2 r q)) := by
  refine (keepdims_apply _ r).trans ?_
  refine (Ideal.multiReduction_maximumf_single v _ reduces_S512x640_S512 _ _ (ix1 r)).trans ?_
  have e : (v ∘ reduces_S512x640_S512.lift (ix1 r)) = (fun q : Fin 640 => v (ix2 r q)) :=
    funext fun q => congrArg v (lift_row r q)
  have b : FloatOps.ofBits (F := Ideal) .f32 0xFF800000#32 = (⊥ : EReal) := ofBits_neg_inf
  rw [e, b]
  rfl

end Layout

/-! ## The reset values -/

/-- The reset value of the running maximum is `-∞`. -/
theorem reset_max (r : Fin 512) : k0_pay4 (F := Ideal) (ix2 r (0 : Fin 1)) = ⊥ := by
  unfold k0_pay4
  rw [shapeCast_self]
  exact ofBits_neg_inf

/-- The reset value of the running sum is `0`. -/
theorem reset_sum (r : Fin 512) : k0_pay5 (F := Ideal) (ix2 r (0 : Fin 1)) = 0 := by
  unfold k0_pay5
  rw [shapeCast_self]
  exact Ideal.ofBits_zero_f32

/-- The reset value of the running picked logit is `0`. -/
theorem reset_pick (r : Fin 512) : k0_pay6 (F := Ideal) (ix2 r (0 : Fin 1)) = 0 := by
  unfold k0_pay6
  rw [shapeCast_self]
  exact Ideal.ofBits_zero_f32

/-! ## The running maximum -/

/-- The new running maximum at a row: the larger of the carried value and the row's block maximum. -/
theorem pay9_apply (xb : Vec Ideal S512x4096 .bf16) (wb : Vec Ideal S640x4096 .f32) (pm : Vec Ideal S512x1 .f32) (r : Fin 512) :
    k0_pay9 (F := Ideal) xb wb pm (ix2 r (0 : Fin 1))
      = max (pm (ix2 r (0 : Fin 1)))
          ((Finset.univ : Finset (Fin 640)).fold max ⊥ (fun q => ∑ k : Fin 4096, xb (ix2 r k) * wb (ix2 q k))) := by
  unfold k0_pay9
  refine (maximumf_apply _ _ _).trans ?_
  refine congrArg (max (pm (ix2 r (0 : Fin 1)))) ?_
  refine (rowMax_apply _ r).trans ?_
  exact congrArg (fun f => Finset.fold max ⊥ f (Finset.univ : Finset (Fin 640))) (funext fun q => logits_apply xb wb r q)

/-- With the carried value the prefix maximum before the block, the new value is the prefix maximum after it. -/
theorem pay9_eq (n : ℕ) (xb : Vec Ideal S512x4096 .bf16) (wb : Vec Ideal S640x4096 .f32)
    (pm : Vec Ideal S512x1 .f32) (r : Fin 512) (S : ℕ → EReal)
    (hS : ∀ q : Fin 640, ∑ k : Fin 4096, xb (ix2 r k) * wb (ix2 q k) = S (n + q.val))
    (hm : pm (ix2 r (0 : Fin 1)) = prefMax S n) :
    k0_pay9 (F := Ideal) xb wb pm (ix2 r (0 : Fin 1)) = prefMax S (n + 640) := by
  rw [pay9_apply, hm, prefMax_step S n 640]
  exact congrArg (fun f => max (prefMax S n) (Finset.fold max ⊥ f (Finset.univ : Finset (Fin 640)))) (funext fun q => hS q)

/-- The running maximum after the point. -/
theorem step_max (i : grid0.Coords) (xb : Vec Ideal S512x4096 .bf16) (wb : Vec Ideal S640x4096 .f32)
    (pm : Vec Ideal S512x1 .f32) (r : Fin 512) (S : ℕ → EReal)
    (hS : ∀ q : Fin 640, ∑ k : Fin 4096, xb (ix2 r k) * wb (ix2 q k) = S (640 * (i 1).val + q.val))
    (hm : pm (ix2 r (0 : Fin 1)) = prefMax S (640 * (i 1).val)) :
    k0_pay2 (F := Ideal) (k0_pay9 xb wb pm) (ix2 r (0 : Fin 1)) = prefMax S (640 * (i 1).val + 640) := by
  unfold k0_pay2
  rw [shapeCast_self]
  exact pay9_eq _ xb wb pm r S hS hm

/-! ## The running sum of shifted exponentials -/

/-- The rescaling factor at a row: `e^(carried - new maximum)`. -/
theorem pay10_apply (xb : Vec Ideal S512x4096 .bf16) (wb : Vec Ideal S640x4096 .f32) (pm pm' : Vec Ideal S512x1 .f32) (r : Fin 512) :
    k0_pay10 (F := Ideal) xb wb pm pm' (ix2 r (0 : Fin 1))
      = Ideal.exp (pm' (ix2 r (0 : Fin 1)) - k0_pay9 (F := Ideal) xb wb pm (ix2 r (0 : Fin 1))) := by
  rfl

/-- The block's shifted exponentials: `e^(logit - new maximum of the row)`. -/
theorem pay11_apply (xb : Vec Ideal S512x4096 .bf16) (wb : Vec Ideal S640x4096 .f32) (pm : Vec Ideal S512x1 .f32) (r : Fin 512) (q : Fin 640) :
    k0_pay11 (F := Ideal) xb wb pm (ix2 r q)
      = Ideal.exp ((∑ k : Fin 4096, xb (ix2 r k) * wb (ix2 q k)) - k0_pay9 (F := Ideal) xb wb pm (ix2 r (0 : Fin 1))) := by
  unfold k0_pay11
  show Ideal.exp (k0_pay7 (F := Ideal) xb wb (ix2 r q) - broadcastTo S512x640 (k0_pay9 (F := Ideal) xb wb pm) broadcasts_S512x1_S512x640 (ix2 r q)) = _
  rw [logits_apply, rowBroadcast_apply]

/-- The running sum of shifted exponentials after the point (the logits read so far are finite reals). -/
theorem step_sum (i : grid0.Coords) (xb : Vec Ideal S512x4096 .bf16) (wb : Vec Ideal S640x4096 .f32)
    (pm pl : Vec Ideal S512x1 .f32) (r : Fin 512) (S : ℕ → EReal)
    (hS : ∀ q : Fin 640, ∑ k : Fin 4096, xb (ix2 r k) * wb (ix2 q k) = S (640 * (i 1).val + q.val))
    (hreal : ∀ v < 640 * (i 1).val + 640, IsReal (S v))
    (hm : pm (ix2 r (0 : Fin 1)) = prefMax S (640 * (i 1).val))
    (hl : pl (ix2 r (0 : Fin 1)) = prefExpSum S (640 * (i 1).val)) :
    k0_pay1 (F := Ideal) (k0_pay10 xb wb pm pm) (k0_pay11 xb wb pm) pl (ix2 r (0 : Fin 1))
      = prefExpSum S (640 * (i 1).val + 640) := by
  unfold k0_pay1
  rw [shapeCast_self]
  refine (addf_apply _ _ _).trans ?_
  rw [rowSum_apply, prefExpSum_step S (640 * (i 1).val) 640 (by decide) hreal]
  refine congrArg₂ (· + ·) ?_ ?_
  · refine (mulf_apply _ _ _).trans ?_
    rw [pay10_apply, pay9_eq _ xb wb pm r S hS hm, hm, hl]
  · refine Finset.sum_congr rfl fun q _ => ?_
    rw [pay11_apply, pay9_eq _ xb wb pm r S hS hm, hS q]

/-! ## The running picked logit -/

/-- The column test at one entry: the column word `q + c · 640` equals the target word exactly when
    `640 · c + q` is the target read as a natural number (no wrap-around: `640 · c + q < 32000`). -/
theorem pick_word (c : ℕ) (hc : c < 50) (q : Fin 640) (t : BitVec 32) (A : EReal) :
    Scalar.select (IntOp.cmpi .eq (IntOp.addi (BitVec.ofNat 32 q.val) (Scalar.muli (BitVec.ofNat 32 c) 640#32)) t) A
        (Scalar.ofBits (F := Ideal) .f32 0x00000000#32)
      = if 640 * c + q.val = t.toNat then A else 0 := by
  have hq := q.isLt
  have key : (BitVec.ofNat 32 q.val + BitVec.ofNat 32 c * 640#32 = t) ↔ 640 * c + q.val = t.toNat := by
    rw [← BitVec.toNat_inj, BitVec.toNat_add, BitVec.toNat_mul, BitVec.toNat_ofNat, BitVec.toNat_ofNat, BitVec.toNat_ofNat]
    omega
  by_cases h : 640 * c + q.val = t.toNat
  · have hw : BitVec.ofNat 32 q.val + BitVec.ofNat 32 c * 640#32 = t := key.mpr h
    have hb : IntOp.cmpi .eq (IntOp.addi (BitVec.ofNat 32 q.val) (Scalar.muli (BitVec.ofNat 32 c) 640#32)) t = 1#1 := by
      show BitVec.ofBool (BitVec.ofNat 32 q.val + BitVec.ofNat 32 c * 640#32 == t) = 1#1
      rw [hw]; simp
    rw [hb, select_one, if_pos h]
  · have hw : ¬ BitVec.ofNat 32 q.val + BitVec.ofNat 32 c * 640#32 = t := fun e => h (key.mp e)
    have hb : IntOp.cmpi .eq (IntOp.addi (BitVec.ofNat 32 q.val) (Scalar.muli (BitVec.ofNat 32 c) 640#32)) t = 0#1 := by
      show BitVec.ofBool (BitVec.ofNat 32 q.val + BitVec.ofNat 32 c * 640#32 == t) = 0#1
      have hf : (BitVec.ofNat 32 q.val + BitVec.ofNat 32 c * 640#32 == t) = false := beq_eq_false_iff_ne.mpr hw
      rw [hf]; rfl
    rw [hb, select_zero, if_neg h]
    exact Ideal.ofBits_zero_f32

/-- The marked entry of the block at `(r, q)`: the logit where the column `640 · (second coordinate) + q` is the row's target, zero elsewhere. -/
theorem pick_entry (i : grid0.Coords) (xb : Vec Ideal S512x4096 .bf16) (wb : Vec Ideal S640x4096 .f32)
    (tb : Vec Ideal S512x1 .i32) (r : Fin 512) (q : Fin 640) :
    select (cmpi .eq (addi (iota .tc S512x640 32 [1] iota_S512x640_d1_w32)
          (broadcast S512x640 (Scalar.muli (BitVec.ofNat 32 (i 1).val) 640#32)))
        (broadcastTo S512x640 tb broadcasts_S512x1_S512x640))
      (k0_pay7 (F := Ideal) xb wb) (broadcast S512x640 (Scalar.ofBits (F := Ideal) .f32 0x00000000#32)) (ix2 r q)
      = if 640 * (i 1).val + q.val = (tb (ix2 r (0 : Fin 1))).toNat
          then ∑ k : Fin 4096, xb (ix2 r k) * wb (ix2 q k) else 0 := by
  have hc : (i 1).val < 50 := (i 1).isLt
  refine (select_apply _ _ _ _).trans ?_
  show Scalar.select (IntOp.cmpi .eq (IntOp.addi (iota .tc S512x640 32 [1] iota_S512x640_d1_w32 (ix2 r q))
      (Scalar.muli (BitVec.ofNat 32 (i 1).val) 640#32))
      (broadcastTo S512x640 tb broadcasts_S512x1_S512x640 (ix2 r q)))
      (k0_pay7 (F := Ideal) xb wb (ix2 r q)) (Scalar.ofBits (F := Ideal) .f32 0x00000000#32) = _
  rw [iota_single_apply, rowBroadcast_apply, logits_apply]
  exact pick_word (i 1).val hc q _ _

/-- The running picked logit after the point: the marked column is the row's target word read as a natural number. -/
theorem step_pick (i : grid0.Coords) (xb : Vec Ideal S512x4096 .bf16) (wb : Vec Ideal S640x4096 .f32)
    (tb : Vec Ideal S512x1 .i32) (pt : Vec Ideal S512x1 .f32) (r : Fin 512) (S : ℕ → EReal)
    (hS : ∀ q : Fin 640, ∑ k : Fin 4096, xb (ix2 r k) * wb (ix2 q k) = S (640 * (i 1).val + q.val))
    (ht : pt (ix2 r (0 : Fin 1)) = prefPick S (tb (ix2 r (0 : Fin 1))).toNat (640 * (i 1).val)) :
    k0_pay8 (F := Ideal) i xb wb tb pt (ix2 r (0 : Fin 1))
      = prefPick S (tb (ix2 r (0 : Fin 1))).toNat (640 * (i 1).val + 640) := by
  unfold k0_pay8
  simp only [shapeCast_self]
  refine (addf_apply _ _ _).trans ?_
  rw [rowSum_apply, prefPick_step S _ (640 * (i 1).val) 640, ht]
  refine congrArg (_ + ·) ?_
  refine Finset.sum_congr rfl fun q _ => ?_
  rw [pick_entry, hS q]

/-! ## The output value -/

/-- The output value at a row: `max + log(sum) - picked`. -/
theorem out_val (vm vl vt : Vec Ideal S512x1 .f32) (r : Fin 512) :
    k0_pay3 (F := Ideal) vm vl vt (ix2 r (0 : Fin 1))
      = (vm (ix2 r (0 : Fin 1)) + Ideal.log (vl (ix2 r (0 : Fin 1)))) - vt (ix2 r (0 : Fin 1)) := by
  rfl

end Cert.KernelIdeal.Step

end
-- ==== Proof.Common.lean ====
/-
  What both programs compute, named once.

  Row `R` of the logits is the sequence `v ↦ Σₖ x[R,k] · w[v,k]` (`v < 32000`); a row's loss is the negated
  log-softmax of that row at the row's target column; the result is the sum of the losses of the rows whose
  target is not the ignored label `-100`, divided by the number of such rows (at least one).
-/
import Idealize.ShloMosaic.PureOps.Ideal
import Idealize.ShloMosaic.PureOps.Ideal.Laws
import Idealize.ShloMosaic.Lib.ValueIdx
import proofs.«418497_j11922829213914_3_alg».proof.Proof.Softmax

noncomputable section

namespace Cert.Common

open Idealize.ShloMosaic Cert.Softmax
open scoped BigOperators

/-- The activations' shape, 8192 rows of 4096 features. -/
abbrev SX : Shape := ⟨2, ![8192, 4096]⟩
/-- The weights' shape, 32000 vocabulary rows of 4096 features. -/
abbrev SW : Shape := ⟨2, ![32000, 4096]⟩
/-- One entry per row. -/
abbrev Rows : Shape := ⟨1, ![8192]⟩

/-- Row `R` of the logits as a sequence: entry `v < 32000` is `Σₖ x[R,k] · w[v,k]`, zero beyond. -/
def rowLogit (x : SX.Idx → EReal) (w : SW.Idx → EReal) (R : Fin 8192) : ℕ → EReal :=
  fun v => if h : v < 32000 then ∑ k : Fin 4096, x (ValueIdx.ix2 R k) * w (ValueIdx.ix2 (⟨v, h⟩ : Fin 32000) k) else 0

/-- Inside the vocabulary the sequence is the inner product. -/
theorem rowLogit_of_lt (x : SX.Idx → EReal) (w : SW.Idx → EReal) (R : Fin 8192) (v : Fin 32000) :
    rowLogit x w R v.val = ∑ k : Fin 4096, x (ValueIdx.ix2 R k) * w (ValueIdx.ix2 v k) := by
  unfold rowLogit
  rw [dif_pos v.isLt]

/-- Finite activations and weights give finite logits. -/
theorem rowLogit_isReal (x : SX.Idx → EReal) (w : SW.Idx → EReal) (hx : ∀ i, LibReal.IsReal (x i))
    (hw : ∀ i, LibReal.IsReal (w i)) (R : Fin 8192) (v : ℕ) : LibReal.IsReal (rowLogit x w R v) := by
  unfold rowLogit
  split
  · exact LibReal.IsReal.sum_univ _ fun k => (hx _).mul (hw _)
  · exact LibReal.isReal_zero

/-- The loss of row `R`: the negated log-softmax of the row's logits at the row's target column. -/
def rowNll (x : SX.Idx → EReal) (w : SW.Idx → EReal) (tgt : Rows.Idx → BitVec 32) (R : Fin 8192) : EReal :=
  -((rowLogit x w R (tgt (ValueIdx.ix1 R)).toNat - prefMax (rowLogit x w R) 32000)
      - Ideal.log (prefExpSum (rowLogit x w R) 32000))

/-- The mean of the per-row losses over the rows whose target is not the ignored label `-100` (the word
    `4294967196`): their sum from the f32 zero, over the larger of their count and one. -/
def maskedMean (tgt : Rows.Idx → BitVec 32) (nll : Rows.Idx → EReal) : EReal :=
  Ideal.div
    (Ideal.ofBits .f32 0x00000000#32
      + ∑ j : Rows.Idx, Scalar.select (IntOp.cmpi .ne (tgt j) 4294967196#32) (nll j) (Ideal.ofBits .f32 0x00000000#32))
    (max (Ideal.ofBits .f32 0x00000000#32
      + ∑ j : Rows.Idx, FloatOps.uitofp (F := Ideal) .f32 (IntOp.cmpi .ne (tgt j) 4294967196#32))
      (Ideal.ofBits .f32 0x3F800000#32))

/-- The mean only looks at the losses of the rows that are not ignored. -/
theorem maskedMean_congr (tgt : Rows.Idx → BitVec 32) (nll nll' : Rows.Idx → EReal)
    (h : ∀ j, tgt j ≠ 4294967196#32 → nll j = nll' j) : maskedMean tgt nll = maskedMean tgt nll' := by
  unfold maskedMean
  congr 2
  refine Finset.sum_congr rfl fun j _ => ?_
  by_cases hj : tgt j = 4294967196#32
  · rw [hj]; rfl
  · rw [h j hj]

end Cert.Common

end
-- ==== Proof.KBlocks.lean ====
/-
  Which entries of the argument arrays a grid point's blocks hold.

  The grid is 16 row blocks by 50 vocabulary blocks, the vocabulary axis innermost: point `t` is row block
  `t / 50`, vocabulary block `t % 50`. Its block of activations is rows `512·(t/50) … +511` of `x` (the change
  of format the host applies first is the identity on the ideal values), its block of weights rows
  `640·(t%50) … +639` of `w`, its block of targets entries `512·(t/50) … +511` of the targets (the host's
  reshape to a column keeps entry `R` at `(R, 0)`).
-/
import proofs.«418497_j11922829213914_3_alg».proof.Proof.Gen.KernelIdeal.Frame
import proofs.«418497_j11922829213914_3_alg».proof.Proof.Common
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps over the grid: row block `t / 50`, vocabulary block `t % 50`. -/
theorem idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0
    ∧ (grid0.coords t (1 : Fin 2)).val = t.val % 50 := by
  decide +kernel

/-- The activations' block at point `t`, row `r`, feature `k`, is `x` at row `512·(t/50) + r`. -/
theorem xblk_apply (c : Dev nD) (t : Fin cfg0.N) (r : Fin 512) (k : Fin 4096) (R : Fin 8192)
    (hR : R.val = 512 * (t.val / 50) + r.val) :
    (iblk m c 0 t : Vec Ideal S512x4096 .bf16) (ix2 r k) = m ((c : Thread nD τ).loc main_arg0) (ix2 R k) := by
  obtain ⟨h00, h01, -⟩ := idx_facts t
  unfold iblk
  rw [View.read_apply]
  show V m c main_v0 (((cfg0.win 0).blk t).view.emb (ix2 r k)) = _
  have e : (V m c main_v0 : S8192x4096.Idx → EReal) = m ((c : Thread nD τ).loc main_arg0) := by
    dsimp only [Gen.V, Gen.V0]
    simp only [Gen.hostOps0, List.flatten_cons, List.flatten_nil, List.append_nil, List.cons_append, List.nil_append]
    after_results
    rfl
  rw [e]
  congr 1
  funext a
  apply Fin.ext
  match a with
  | ⟨0, _⟩ =>
    show win0_0.index t 0 * 512 + 1 * r.val = R.val
    rw [h00]; omega
  | ⟨1, _⟩ =>
    show win0_0.index t 1 * 4096 + 1 * k.val = k.val
    rw [h01]; omega

/-- The weights' block at point `t`, row `q`, feature `k`, is `w` at row `640·(t%50) + q`. -/
theorem wblk_apply (c : Dev nD) (t : Fin cfg0.N) (q : Fin 640) (k : Fin 4096) (v : Fin 32000)
    (hv : v.val = 640 * (t.val % 50) + q.val) :
    (iblk m c 1 t : Vec Ideal S640x4096 .f32) (ix2 q k) = m ((c : Thread nD τ).loc main_arg1) (ix2 v k) := by
  obtain ⟨-, -, h10, h11, -⟩ := idx_facts t
  unfold iblk
  rw [View.read_apply]
  show V m c main_arg1 (((cfg0.win 1).blk t).view.emb (ix2 q k)) = _
  rw [V_main_arg1]
  congr 1
  funext a
  apply Fin.ext
  match a with
  | ⟨0, _⟩ =>
    show win0_1.index t 0 * 640 + 1 * q.val = v.val
    rw [h10]; omega
  | ⟨1, _⟩ =>
    show win0_1.index t 1 * 4096 + 1 * k.val = k.val
    rw [h11]; omega

/-- The targets' block at point `t`, row `r`, is the target of row `512·(t/50) + r`. -/
theorem tblk_apply (c : Dev nD) (t : Fin cfg0.N) (r : Fin 512) (R : Fin 8192)
    (hR : R.val = 512 * (t.val / 50) + r.val) :
    (iblk m c 2 t : Vec Ideal S512x1 .i32) (ix2 r (0 : Fin 1)) = m ((c : Thread nD τ).loc main_arg2) (ix1 R) := by
  obtain ⟨-, -, -, -, h20, h21, -⟩ := idx_facts t
  unfold iblk
  rw [View.read_apply]
  show V m c main_v1 (((cfg0.win 2).blk t).view.emb (ix2 r (0 : Fin 1))) = _
  have e : (V m c main_v1 : S8192x1.Idx → BitVec 32) = shapeCast S8192x1 (m ((c : Thread nD τ).loc main_arg2)) shapeCasts_S8192_S8192x1 := by
    dsimp only [Gen.V, Gen.V0]
    simp only [Gen.hostOps0, List.flatten_cons, List.flatten_nil, List.append_nil, List.cons_append, List.nil_append]
    after_results
    rfl
  rw [e]
  refine shapeCast_apply _ _ _ (ix1 R) ?_
  rw [Shape.rowMajor_val_two, Shape.rowMajor_val_one]
  show R.val = (win0_2.index t 0 * 512 + 1 * r.val) * 1 + (win0_2.index t 1 * 1 + 1 * 0)
  rw [h20, h21]; omega

end Cert.KernelIdeal.Blocks

end
-- ==== Proof.KInv.lean ====
/-
  What the kernel's region leaves: the column of per-row losses.

  The grid is 16 row blocks by 50 vocabulary blocks, vocabulary innermost. Along a row block's 50 points the
  three carried buffers hold, at row `r` of the block (row `R = 512·(t/50) + r` of the arrays), the prefix
  maximum, the prefix sum of shifted exponentials and the prefix picked logit of row `R`'s logits after
  `640·(t%50 + 1)` columns: they are reset at the block's first point (`-∞, 0, 0` are the prefix values after
  no column) and each point reads 640 more columns. At the block's last point the 32000 columns are read and
  the output block is `max + log(sum) - picked`; it is the only point that writes the output back, and the 16
  such blocks tile the output column.
-/
import proofs.«418497_j11922829213914_3_alg».proof.Proof.Gen.KernelIdeal.Frame
import proofs.«418497_j11922829213914_3_alg».proof.Proof.KPieces
import proofs.«418497_j11922829213914_3_alg».proof.Proof.KStep
import proofs.«418497_j11922829213914_3_alg».proof.Proof.KBlocks
import proofs.«418497_j11922829213914_3_alg».proof.Proof.Common
import Idealize.ShloMosaic.Lib.Pipeline.Value
import Idealize.ShloMosaic.Lib.ValueIdx

set_option maxRecDepth 16384

noncomputable section

namespace Cert.KernelIdeal.Inv

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step Cert.KernelIdeal.Blocks
open Cert.Common Cert.Softmax Cert.LibReal
open scoped BigOperators

variable (m : (ℓ : Loc nD τ sig) → Buf (Elt Ideal) ℓ)

/-- The activations as launched. -/
abbrev xs (c : Dev nD) : SX.Idx → EReal := m ((c : Thread nD τ).loc main_arg0)
/-- The weights as launched. -/
abbrev ws (c : Dev nD) : SW.Idx → EReal := m ((c : Thread nD τ).loc main_arg1)
/-- The targets as launched. -/
abbrev ts (c : Dev nD) : Rows.Idx → BitVec 32 := m ((c : Thread nD τ).loc main_arg2)

/-- The blocks a point holds, at their literal types. -/
abbrev xb (c : Dev nD) (t : Fin cfg0.N) : Vec Ideal S512x4096 .bf16 := iblk m c 0 t
abbrev wb (c : Dev nD) (t : Fin cfg0.N) : Vec Ideal S640x4096 .f32 := iblk m c 1 t
abbrev tb (c : Dev nD) (t : Fin cfg0.N) : Vec Ideal S512x1 .i32 := iblk m c 2 t

/-- The 640 logits a point computes for row `r` of its block are columns `640·(t%50) … +639` of row `R`. -/
theorem block_logits (c : Dev nD) (t : Fin cfg0.N) (r : Fin 512) (R : Fin 8192)
    (hR : R.val = 512 * (t.val / 50) + r.val) (q : Fin 640) :
    ∑ k : Fin 4096, xb m c t (ix2 r k) * wb m c t (ix2 q k)
      = rowLogit (xs m c) (ws m c) R (640 * (grid0.coords t (1 : Fin 2)).val + q.val) := by
  obtain ⟨-, -, -, -, -, -, -, -, ej⟩ := idx_facts t
  have hq := q.isLt
  have hmod : t.val % 50 < 50 := Nat.mod_lt _ (by norm_num)
  have hv : 640 * (t.val % 50) + q.val < 32000 := by omega
  rw [ej, show 640 * (t.val % 50) + q.val = (⟨640 * (t.val % 50) + q.val, hv⟩ : Fin 32000).val from rfl, rowLogit_of_lt]
  refine Finset.sum_congr rfl fun k _ => ?_
  exact congrArg₂ (· * ·) (xblk_apply m c t r k R hR) (wblk_apply m c t q k ⟨_, hv⟩ rfl)

/-- One point, row by row: from the prefix values after `640·j` columns to those after `640·j + 640`. -/
theorem point_step (i : grid0.Coords) (x0 : Vec Ideal S512x4096 .bf16) (x1 : Vec Ideal S640x4096 .f32)
    (x2 : Vec Ideal S512x1 .i32) (pm pl pt : Vec Ideal S512x1 .f32) (r : Fin 512) (S : ℕ → EReal)
    (hS : ∀ q : Fin 640, ∑ k : Fin 4096, x0 (ix2 r k) * x1 (ix2 q k) = S (640 * (i 1).val + q.val))
    (hreal : ∀ v, IsReal (S v))
    (hm : pm (ix2 r (0 : Fin 1)) = prefMax S (640 * (i 1).val))
    (hl : pl (ix2 r (0 : Fin 1)) = prefExpSum S (640 * (i 1).val))
    (ht : pt (ix2 r (0 : Fin 1)) = prefPick S (x2 (ix2 r (0 : Fin 1))).toNat (640 * (i 1).val)) :
    k0_pay2 (F := Ideal) (k0_pay9 x0 x1 pm) (ix2 r (0 : Fin 1)) = prefMax S (640 * (i 1).val + 640)
    ∧ k0_pay1 (F := Ideal) (k0_pay10 x0 x1 pm pm) (k0_pay11 x0 x1 pm) pl (ix2 r (0 : Fin 1))
        = prefExpSum S (640 * (i 1).val + 640)
    ∧ k0_pay8 (F := Ideal) i x0 x1 x2 pt (ix2 r (0 : Fin 1))
        = prefPick S (x2 (ix2 r (0 : Fin 1))).toNat (640 * (i 1).val + 640) :=
  ⟨step_max i x0 x1 pm r S hS hm, step_sum i x0 x1 pm pl r S hS (fun v _ => hreal v) hm hl,
    step_pick i x0 x1 x2 pt r S hS ht⟩

section Invariant

variable (hx : ∀ c i, IsReal (xs m c i)) (hw : ∀ c i, IsReal (ws m c i))
include hx hw

/-- THE INVARIANT. After point `n` the carried buffers hold, at row `r`, the three prefix values of row
    `R = 512·(n/50) + r` after `640·(n%50) + 640` columns. -/
theorem inv (c : Dev nD) : ∀ (n : ℕ) (hn : n < cfg0.N) (r : Fin 512) (R : Fin 8192), R.val = 512 * (n / 50) + r.val →
    (outsAt0 m c n hn).2.1 (ix2 r (0 : Fin 1)) = prefMax (rowLogit (xs m c) (ws m c) R) (640 * (n % 50) + 640)
    ∧ (outsAt0 m c n hn).2.2.1 (ix2 r (0 : Fin 1)) = prefExpSum (rowLogit (xs m c) (ws m c) R) (640 * (n % 50) + 640)
    ∧ (outsAt0 m c n hn).2.2.2 (ix2 r (0 : Fin 1))
        = prefPick (rowLogit (xs m c) (ws m c) R) (ts m c (ix1 R)).toNat (640 * (n % 50) + 640) := by
  intro n
  induction n using Nat.strong_induction_on with
  | _ n ih =>
    intro hn r R hR
    obtain ⟨-, -, -, -, -, -, -, -, ej⟩ := idx_facts ⟨n, hn⟩
    have ej' : (grid0.coords ⟨n, hn⟩ (1 : Fin 2)).val = n % 50 := ej
    have hreal : ∀ v, IsReal (rowLogit (xs m c) (ws m c) R v) := fun v => rowLogit_isReal _ _ (hx c) (hw c) R v
    have htg : tb m c ⟨n, hn⟩ (ix2 r (0 : Fin 1)) = ts m c (ix1 R) := tblk_apply m c ⟨n, hn⟩ r R hR
    by_cases h0 : n % 50 = 0
    · have h1 : ¬n % 50 = 49 := by omega
      have key := point_step (grid0.coords ⟨n, hn⟩) (xb m c ⟨n, hn⟩) (wb m c ⟨n, hn⟩) (tb m c ⟨n, hn⟩)
        (k0_pay4 (F := Ideal)) (k0_pay5 (F := Ideal)) (k0_pay6 (F := Ideal)) r (rowLogit (xs m c) (ws m c) R) (block_logits m c ⟨n, hn⟩ r R hR) hreal
        (by rw [reset_max, ej', h0, Nat.mul_zero, prefMax_zero])
        (by rw [reset_sum, ej', h0, Nat.mul_zero, prefExpSum_zero])
        (by rw [reset_pick, ej', h0, Nat.mul_zero, prefPick_zero])
      rw [ej', htg] at key
      rw [outsAt0_A m c ⟨n, hn⟩ h0 h1]
      dsimp only
      exact ⟨(congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 r (0 : Fin 1))).trans key.1,
        (congrFun (sout0_A_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 r (0 : Fin 1))).trans key.2.1,
        (congrFun (sout0_A_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 r (0 : Fin 1))).trans key.2.2⟩
    · have hprev : n - 1 < cfg0.N := Nat.lt_of_le_of_lt (Nat.sub_le _ _) hn
      obtain ⟨pm, pl, pt⟩ := ih (n - 1) (by omega) hprev r R (by omega)
      have earith : 640 * ((n - 1) % 50) + 640 = 640 * (n % 50) := by omega
      rw [earith] at pm pl pt
      have key := point_step (grid0.coords ⟨n, hn⟩) (xb m c ⟨n, hn⟩) (wb m c ⟨n, hn⟩) (tb m c ⟨n, hn⟩)
        (outsAt0 m c (n - 1) hprev).2.1 (outsAt0 m c (n - 1) hprev).2.2.1 (outsAt0 m c (n - 1) hprev).2.2.2
        r (rowLogit (xs m c) (ws m c) R) (block_logits m c ⟨n, hn⟩ r R hR) hreal
        (by rw [ej']; exact pm) (by rw [ej']; exact pl) (by rw [ej', htg]; exact pt)
      rw [ej', htg] at key
      by_cases h1 : n % 50 = 49
      · rw [outsAt0_C m c ⟨n, hn⟩ h0 h1]
        dsimp only
        exact ⟨(congrFun (sout0_C_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.1,
          (congrFun (sout0_C_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.2.1,
          (congrFun (sout0_C_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.2.2⟩
      · rw [outsAt0_B m c ⟨n, hn⟩ h0 h1]
        dsimp only
        exact ⟨(congrFun (sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.1,
          (congrFun (sout0_B_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.2.1,
          (congrFun (sout0_B_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans key.2.2⟩

/-- The loss of row `R` as the kernel forms it: `max + log(sum) - picked` over the whole row. -/
def rowLoss (c : Dev nD) (R : Fin 8192) : EReal :=
  (prefMax (rowLogit (xs m c) (ws m c) R) 32000 + Ideal.log (prefExpSum (rowLogit (xs m c) (ws m c) R) 32000))
    - prefPick (rowLogit (xs m c) (ws m c) R) (ts m c (ix1 R)).toNat 32000

omit hx hw in
/-- The column of per-row losses. -/
def lossCol (c : Dev nD) : S8192x1.Idx → EReal := fun i => rowLoss m c ⟨(i 0).val, idx2_lt0 i⟩

/-- At a row block's last point the output block holds the block's rows' losses. -/
theorem out_at (c : Dev nD) (n : ℕ) (hn : n < cfg0.N) (h1 : n % 50 = 49) (y : S512x1.Idx) (R : Fin 8192)
    (hR : R.val = 512 * (n / 50) + (y 0).val) :
    (outsAt0 m c n hn).1 y = rowLoss m c R := by
  obtain ⟨r, z, rfl⟩ : ∃ (r : Fin 512) (z : Fin 1), y = ix2 r z := ⟨y 0, y 1, eq_ix2 y⟩
  obtain rfl : z = 0 := Subsingleton.elim _ _
  have hR' : R.val = 512 * (n / 50) + r.val := hR
  have h0 : ¬n % 50 = 0 := by omega
  obtain ⟨-, -, -, -, -, -, -, -, ej⟩ := idx_facts ⟨n, hn⟩
  have ej' : (grid0.coords ⟨n, hn⟩ (1 : Fin 2)).val = n % 50 := ej
  have hreal : ∀ v, IsReal (rowLogit (xs m c) (ws m c) R v) := fun v => rowLogit_isReal _ _ (hx c) (hw c) R v
  have htg : tb m c ⟨n, hn⟩ (ix2 r (0 : Fin 1)) = ts m c (ix1 R) := tblk_apply m c ⟨n, hn⟩ r R hR'
  have hprev : n - 1 < cfg0.N := Nat.lt_of_le_of_lt (Nat.sub_le _ _) hn
  obtain ⟨pm, pl, pt⟩ := inv m hx hw c (n - 1) hprev r R (by omega)
  have earith : 640 * ((n - 1) % 50) + 640 = 640 * (n % 50) := by omega
  rw [earith] at pm pl pt
  have key := point_step (grid0.coords ⟨n, hn⟩) (xb m c ⟨n, hn⟩) (wb m c ⟨n, hn⟩) (tb m c ⟨n, hn⟩)
    (outsAt0 m c (n - 1) hprev).2.1 (outsAt0 m c (n - 1) hprev).2.2.1 (outsAt0 m c (n - 1) hprev).2.2.2
    r (rowLogit (xs m c) (ws m c) R) (block_logits m c ⟨n, hn⟩ r R hR') hreal
    (by rw [ej']; exact pm) (by rw [ej']; exact pl) (by rw [ej', htg]; exact pt)
  have e32 : 640 * (n % 50) + 640 = 32000 := by omega
  rw [ej', htg, e32] at key
  rw [outsAt0_C m c ⟨n, hn⟩ h0 h1]
  dsimp only
  refine (congrFun (out0_C_3_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) hprev).2.1 (outsAt0 m c (n - 1) hprev).2.2.1 (outsAt0 m c (n - 1) hprev).2.2.2) (ix2 r (0 : Fin 1))).trans ?_
  rw [out_val, key.1, key.2.1, key.2.2]
  rfl

/-- What a point that writes the output back writes: its block of the column of losses. -/
theorem flushed_eq (c : Dev nD) (t : Fin cfg0.N) (hf : (cfg0.win 3).flush t = true) :
    (dats m 0 c).flushed 3 t = ((cfg0.win 3).blk t).view.read (Elt Ideal) (lossCol m c) := by
  have h49 : t.val % 50 = 49 := (flush0_3 t).mp hf
  obtain ⟨-, -, -, -, -, -, e30, -, -⟩ := idx_facts t
  show (cfg0.win 3).cut (grid0.coords t) ((dats m 0 c).after 3 t) = _
  rw [after0_3]
  funext j
  show (outsAt0 m c t.val t.isLt).1 j = lossCol m c (((cfg0.win 3).blk t).view.emb j)
  refine out_at m hx hw c t.val t.isLt h49 j _ ?_
  show win0_3.index t (0 : Fin 2) * 512 + 1 * (j 0).val = 512 * (t.val / 50) + (j 0).val
  rw [e30]; omega

omit hx hw in
/-- An index of the output column is in point `t`'s block iff its row is in the block's 512 rows. -/
theorem mem_blk (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v2).slice (win0_3.rect t)).set ↔ _
  rw [View.set_slice_whole, Rect.mem_set_unit]
  exact Iff.rfl

omit hx hw in
/-- Every row of the output column lies in the block of its row block's last point. -/
theorem cover (i : S8192x1.Idx) : ∃ t : Fin cfg0.N, (cfg0.win 3).flush t = true ∧ i ∈ ((cfg0.win 3).blk t).view.set := by
  have hN : cfg0.N = 800 := N_0
  have hi0 : (i 0).val < 8192 := idx2_lt0 i
  have hi1 : (i 1).val < 1 := idx2_lt1 i
  have ht : 50 * ((i 0).val / 512) + 49 < cfg0.N := by rw [hN]; omega
  refine ⟨⟨50 * ((i 0).val / 512) + 49, ht⟩, (flush0_3 _).mpr (by show (50 * ((i 0).val / 512) + 49) % 50 = 49; omega), ?_⟩
  obtain ⟨-, -, -, -, -, -, e30, e31, -⟩ := idx_facts ⟨50 * ((i 0).val / 512) + 49, ht⟩
  have e30' : win0_3.index ⟨50 * ((i 0).val / 512) + 49, ht⟩ (0 : Fin 2) = (50 * ((i 0).val / 512) + 49) / 50 := e30
  rw [mem_blk]
  intro a
  match a with
  | ⟨0, _⟩ =>
    show win0_3.index ⟨50 * ((i 0).val / 512) + 49, ht⟩ (0 : Fin 2) * 512 ≤ (i 0).val ∧ (i 0).val < win0_3.index ⟨50 * ((i 0).val / 512) + 49, ht⟩ (0 : Fin 2) * 512 + 512
    rw [e30']; omega
  | ⟨1, _⟩ =>
    show win0_3.index ⟨50 * ((i 0).val / 512) + 49, ht⟩ (1 : Fin 2) * 1 ≤ (i 1).val ∧ (i 1).val < win0_3.index ⟨50 * ((i 0).val / 512) + 49, ht⟩ (1 : Fin 2) * 1 + 1
    rw [e31]; omega

/-- THE OUTPUT ARRAY after the region: the column of per-row losses. -/
theorem final (c : Dev nD) : ((dats m 0 c).arrAt 3 cfg0.N : S8192x1.Idx → EReal) = lossCol m c :=
  (dats m 0 c).arrAt_eq_of_cover 3 (lossCol m c) (flushed_eq m hx hw c) cover

end Invariant

end Cert.KernelIdeal.Inv

end
-- ==== Proof.KTail.lean ====
/-
  The host operations after the kernel's region: from the per-row losses the region leaves (an [8192, 1]
  column) to the result. They drop the unit axis, mark the rows whose target is not the ignored label, count
  them (at least one), zero the ignored rows' losses, sum, and divide: the masked mean.
-/
import proofs.«418497_j11922829213914_3_alg».proof.Proof.Gen.KernelIdeal.Frame
import proofs.«418497_j11922829213914_3_alg».proof.Proof.Common
import Idealize.ShloMosaic.Lib.Pipeline.Value
import Idealize.ShloMosaic.Lib.ValueIdx
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen Cert.Common

variable (m : (ℓ : Loc nD τ sig) → Buf (Elt Ideal) ℓ)

/-- The host's sum of a vector of 8192 entries into a scalar is the initial value plus the sum of the entries. -/
theorem reduceAdd_rows (y : FVec Ideal S8192 .f32) (init : FVec Ideal S_ .f32) (i : S_.Idx) :
    Host.reduceAdd y init reducesTo_S8192_S_d0 h_S_ i = init (Shape.Idx.first h_S_) + ∑ j : S8192.Idx, y j := by
  simp only [Host.reduceAdd, Ideal.hostReduceAdd_def]
  exact Ideal.hostReduceAdd_total reducesTo_S8192_S_d0 (fun b => b.elim0) y _ i

/-- Dropping the unit axis of an `[8192, 1]` column: entry `j` of the result is the column at `(j, 0)`. -/
theorem dropUnit_apply {α : Type} (g : S8192x1.Idx → α) (j : S8192.Idx) :
    shapeCast S8192 g shapeCasts_S8192x1_S8192 j = g (ix2 (j 0) (0 : Fin 1)) :=
  shapeCast_apply g shapeCasts_S8192x1_S8192 j (ix2 (j 0) (0 : Fin 1)) (by
    rewrite [Shape.rowMajor_val_two, Shape.rowMajor_val_one]
    show (j 0).val * 1 + 0 = (j 0).val
    omega)

/-- If the region leaves the column `G` of per-row losses in its output array, the program's result is the
    masked mean of the losses `R ↦ G (R, 0)` over the targets. -/
theorem tail_eq (c : Dev nD) (G : S8192x1.Idx → EReal)
    (hG : ((dats m 0 c).arrAt 3 cfg0.N : S8192x1.Idx → EReal) = G) (i : S_.Idx) :
    (Pipeline.afterTail₀ cfgs (dats m) 0 (V0 m) [hostOps1, hostOps1_1, hostOps1_2] c main_v11 : S_.Idx → EReal) i
      = maskedMean (m ((c : Thread nD τ).loc main_arg2)) (fun j => G (ix2 (j 0) (0 : Fin 1))) := by
  unfold Pipeline.afterTail₀
  simp only [hostOps1, hostOps1_1, hostOps1_2, List.flatten_cons, List.flatten_nil, List.append_nil, List.cons_append, List.nil_append]
  after_results
  simp only [StableHlo.TRef.ofBuf, StableHlo.TRef.toBuf, cast_eq]
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_v2)
      = G :=
    (Pipeline.withArrays_arr spec0 launch0.win.arr_inj c _ _ 3).trans hG
  rw [h2, h3]
  simp only [Host.divf, maximumf]
  rw [reduceAdd_rows, reduceAdd_rows]
  unfold maskedMean
  refine congrArg₂ Ideal.div (congrArg₂ (· + ·) rfl (Finset.sum_congr rfl fun j _ => ?_))
    (congrArg₂ max (congrArg₂ (· + ·) rfl (Finset.sum_congr rfl fun j _ => ?_)) rfl)
  · exact congrArg (fun a => Scalar.select (IntOp.cmpi .ne (m ((c : Thread nD τ).loc main_arg2) j) 4294967196#32) a
      (Ideal.ofBits .f32 0x00000000#32)) (dropUnit_apply G j)
  · rfl

end Cert.KernelIdeal.Tail

end
-- ==== Proof.KRun.lean ====
/-
  The idealized kernel's run, read: the result is the masked mean of the per-row losses
  `max + log(sum) - picked`, and for a row whose target is a column of the vocabulary that loss is the negated
  log-softmax of the row's logits at the target (the law `M + log L - s = -((s - M) - log L)` of finite reals).
-/
import proofs.«418497_j11922829213914_3_alg».proof.Proof.KInv
import proofs.«418497_j11922829213914_3_alg».proof.Proof.KTail

set_option maxRecDepth 16384

noncomputable section

namespace Cert.KernelIdeal.Run

open Idealize.ShloMosaic Idealize.ShloMosaic.TcCoe Idealize.ShloMosaic.ValueIdx Idealize.SL.Sem
open Cert.KernelIdeal Cert.KernelIdeal.Gen Cert.KernelIdeal.Inv Cert.KernelIdeal.Tail
open Cert.Common Cert.Softmax Cert.LibReal

variable (m : (ℓ : Loc nD τ sig) → Buf (Elt Ideal) ℓ) (ρ : Dev nD → PrngReg)
variable (hx : ∀ c i, IsReal (xs m c i)) (hw : ∀ c i, IsReal (ws m c i))
include hx hw

/-- For a row whose target is a column of the vocabulary the kernel's loss is the negated log-softmax. -/
theorem lossCol_eq_rowNll (c : Dev nD) (R : Fin 8192) (hR : (ts m c (ix1 R)).toNat < 32000) :
    lossCol m c (ix2 R (0 : Fin 1)) = rowNll (xs m c) (ws m c) (ts m c) R := by
  show rowLoss m c R = _
  unfold rowLoss rowNll
  exact nll_law _ 32000 (by norm_num) (fun v _ => rowLogit_isReal _ _ (hx c) (hw c) R v) _ hR

/-- The result the kernel's program ends with. -/
abbrev result (c : Dev nD) : S_.Idx → EReal :=
  fun _ => maskedMean (ts m c) (fun j => lossCol m c (ix2 (j 0) (0 : Fin 1)))

/-- THE RUN: every weakly fair execution terminates with the result at the masked mean of the per-row losses,
    the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans
        (funext fun i => tail_eq m c (lossCol m c) (final m hx hw c) i),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.RefSide.lean ====
/-
  The reference program's result, read: it is the masked mean of its per-row losses, and the loss of a row
  whose target is a column of the vocabulary is the negated log-softmax of the row's logits at that column.

  The program computes `logits = x · wᵀ`, subtracts each row's maximum (taken from -∞), exponentiates, sums
  each row, takes the logarithm, subtracts: the log-softmax. It replaces an ignored target by column 0,
  wraps a negative column by adding 32000, gathers the log-softmax at the column when the column lies in
  `[0, 31999]`, negates, zeroes the ignored rows, sums, and divides by the number of rows not ignored (at
  least one).
-/
import proofs.«418497_j11922829213914_3_alg».proof.Proof.RefReadP
import proofs.«418497_j11922829213914_3_alg».proof.Proof.Common
import Idealize.ShloMosaic.PureOps.Reduce
import Idealize.ShloMosaic.Lib.Affine
import Idealize.ShloMosaic.Lib.ValueIdx

noncomputable section

namespace Cert.ReferenceIdeal.RefSide

open Idealize.ShloMosaic Idealize.ShloMosaic.ValueIdx Cert.ReferenceIdeal Cert.ReferenceIdeal.Gen Cert.ReferenceIdeal.ReadP
open Cert.Common Cert.Softmax Cert.LibReal
open scoped BigOperators

/-! ## The row maximum, read at a row

A reduction of a `[8192, 32000]` array along its second axis by the maximum, from an initial value -∞, is at
row `j` the maximum from -∞ of the 32000 entries of that row. -/

/-- Dropping the second axis of a `[8192, 32000]` array leaves its 8192 rows. -/
theorem reduces_cols : S8192x32000.Reduces [1] S8192 := by decide

/-- Row `j` with column `k` put back on the dropped axis is the entry `(j, k)`. -/
theorem lift_cols (j : S8192.Idx) (k : Fin (S8192x32000.size 1)) :
    reduces_cols.lift j k = ix2 (⟨(j 0).val, (j 0).isLt⟩ : Fin 8192) (⟨k.val, k.isLt⟩ : Fin 32000) := by
  funext c; apply Fin.ext
  match c with
  | ⟨0, _⟩ => rfl
  | ⟨1, _⟩ => rfl

/-- The row maximum at row `j`: the maximum, from -∞, over the columns. -/
theorem rowmax_read (y : S8192x32000.Idx → EReal) (init : S_.Idx → EReal) (hinit : ∀ i, init i = ⊥) (j : S8192.Idx) :
    Host.reduce (FloatOps.maximumf (F := Ideal) (φ := .f32)) y init reducesTo_S8192x32000_S8192_d1 h_S_ j
      = (Finset.univ : Finset (Fin 32000)).fold max ⊥ (fun k => y (ix2 (⟨(j 0).val, (j 0).isLt⟩ : Fin 8192) k)) := by
  rw [Host.reduce_eq_fold_single (FloatOps.maximumf (F := Ideal) (φ := .f32)) y _ reducesTo_S8192x32000_S8192_d1 reduces_cols h_S_]
  have hf : (y ∘ reduces_cols.lift j) = fun k : Fin 32000 => y (ix2 (⟨(j 0).val, (j 0).isLt⟩ : Fin 8192) k) :=
    funext fun k => congrArg y (lift_cols j k)
  rw [hf, hinit]
  rfl

/-! ## The range test's conjunction over its one-element axis, read at an index

A reduction of a `[8192, 1, 1]` array of bits along its last axis by `and`, from the bit 1, is at `(r, c)` the
one bit `(r, c, 0)`. -/

/-- Dropping the last axis of a `[8192, 1, 1]` array leaves a `[8192, 1]` array. -/
theorem reduces_last : S8192x1x1.Reduces [2] S8192x1 := by decide

/-- Index `j` with coordinate `k` put back on the dropped axis. -/
theorem lift_last (j : S8192x1.Idx) (k : Fin (S8192x1x1.size 2)) :
    reduces_last.lift j k
      = ix3 (⟨(j 0).val, (j 0).isLt⟩ : Fin 8192) (⟨(j 1).val, (j 1).isLt⟩ : Fin 1) (⟨k.val, k.isLt⟩ : Fin 1) := by
  funext c; apply Fin.ext
  match c with
  | ⟨0, _⟩ => rfl
  | ⟨1, _⟩ => rfl
  | ⟨2, _⟩ => rfl

/-- The conjunction over the one-element axis is the one bit there. -/
theorem and_read (p : S8192x1x1.Idx → BitVec 1) (init : S_.Idx → BitVec 1) (hinit : ∀ i, init i = 1#1) (j : S8192x1.Idx) :
    Host.reduce IntOp.andi p init reducesTo_S8192x1x1_S8192x1_d2 h_S_ j
      = p (ix3 (⟨(j 0).val, (j 0).isLt⟩ : Fin 8192) (⟨(j 1).val, (j 1).isLt⟩ : Fin 1) (0 : Fin 1)) := by
  rw [Host.reduce_eq_fold_single IntOp.andi p _ reducesTo_S8192x1x1_S8192x1_d2 reduces_last h_S_]
  have hf : (p ∘ reduces_last.lift j)
      = fun k : Fin 1 => p (ix3 (⟨(j 0).val, (j 0).isLt⟩ : Fin 8192) (⟨(j 1).val, (j 1).isLt⟩ : Fin 1) k) :=
    funext fun k => congrArg p (lift_last j k)
  have e : Finset.fold IntOp.andi (1#1 : BitVec 1)
      (fun k : Fin 1 => p (ix3 (⟨(j 0).val, (j 0).isLt⟩ : Fin 8192) (⟨(j 1).val, (j 1).isLt⟩ : Fin 1) k))
      (Finset.univ : Finset (Fin 1))
      = p (ix3 (⟨(j 0).val, (j 0).isLt⟩ : Fin 8192) (⟨(j 1).val, (j 1).isLt⟩ : Fin 1) (0 : Fin 1)) := by
    rw [Finset.univ_unique, Finset.fold_singleton]
    show IntOp.andi (p (ix3 _ _ (0 : Fin 1))) 1#1 = _
    generalize p _ = b
    revert b; decide
  rw [hf, hinit]
  exact e

/-! ## The gather, read at an index

The gather takes from row `r` of the `[8192, 32000]` operand the entry at the column its start index `(r, c, 0)`
names, read as a signed integer and clamped into `[0, 31999]`. -/

/-- The start-indices index `(r, c, 0)` that result index `(r, c)` reads. -/
abbrev gidx (j : S8192x1.Idx) : S8192x1x1.Idx := fun a => match a with
  | ⟨0, _⟩ => ⟨(j 0).val, (j 0).isLt⟩ | ⟨1, _⟩ => ⟨(j 1).val, (j 1).isLt⟩ | ⟨2, _⟩ => ⟨0, Nat.one_pos⟩

/-- The gather at `(r, c)`: the operand at row `r` and the clamped column. -/
theorem gather_read {α : Type} (x : S8192x32000.Idx → α) (idx : IVec S8192x1x1 32) (j : S8192x1.Idx) :
    Host.gather gather_S8192x32000_S8192x1x1_S8192x1_n_1_0_0_1_2_11 x idx j
      = x (ix2 (⟨(j 0).val, (j 0).isLt⟩ : Fin 8192) (⟨min (idx (gidx j)).toInt.toNat 31999, by omega⟩ : Fin 32000)) := by
  unfold Host.gather
  congr 1
  funext a
  refine Fin.ext ?_
  match a with
  | ⟨0, _⟩ =>
    -- the batching axis: the row of the result index
    show gather_S8192x32000_S8192x1x1_S8192x1_n_1_0_0_1_2_11.start j idx 0 + gather_S8192x32000_S8192x1x1_S8192x1_n_1_0_0_1_2_11.batchCoord j 0 + gather_S8192x32000_S8192x1x1_S8192x1_n_1_0_0_1_2_11.offCoord j 0 = (j 0).val
    rw [GatherDims.start_batching _ _ _ _ (by decide), GatherDims.offCoord_eq_zero _ _ _ (by decide)]
    unfold GatherDims.batchCoord
    rw [dif_pos (show (0 : Fin 2) ∈ gather_S8192x32000_S8192x1x1_S8192x1_n_1_0_0_1_2_11.operandBatchingDims by decide), Nat.zero_add, Nat.add_zero]
    rfl
  | ⟨1, _⟩ =>
    -- the collapsed axis: the clamped start index
    show gather_S8192x32000_S8192x1x1_S8192x1_n_1_0_0_1_2_11.start j idx 1 + gather_S8192x32000_S8192x1x1_S8192x1_n_1_0_0_1_2_11.batchCoord j 1 + gather_S8192x32000_S8192x1x1_S8192x1_n_1_0_0_1_2_11.offCoord j 1 = min (idx (gidx j)).toInt.toNat 31999
    rw [GatherDims.batchCoord_eq_zero _ _ _ (by decide), GatherDims.offCoord_eq_zero _ _ _ (by decide)]
    simp only [Nat.add_zero]
    unfold GatherDims.start
    rw [dif_pos (show (1 : Fin 2) ∈ gather_S8192x32000_S8192x1x1_S8192x1_n_1_0_0_1_2_11.startIndexMap by decide)]
    have hsi : gather_S8192x32000_S8192x1x1_S8192x1_n_1_0_0_1_2_11.siIdx j ⟨List.idxOf (1 : Fin 2) gather_S8192x32000_S8192x1x1_S8192x1_n_1_0_0_1_2_11.startIndexMap,
        List.idxOf_lt_length_iff.2 (by decide)⟩ = gidx j := by
      funext b; refine Fin.ext ?_
      match b with
      | ⟨0, _⟩ => rfl
      | ⟨1, _⟩ => rfl
      | ⟨2, _⟩ => rfl
    rw [hsi]
    rfl

/-! ## Index equations: the composed index maps at a row are the coordinate constructors -/

theorem idx_v7 (R : Fin 8192) : idx_main_v7 (ix1 R) = ix2 R (0 : Fin 1) := by
  funext a; refine Fin.ext ?_
  match a with
  | ⟨0, _⟩ => exact Nat.div_one _
  | ⟨1, _⟩ => rfl

theorem idx_v5 (R : Fin 8192) : idx_main_v5 (ix2 R (0 : Fin 1)) = ix1 R := by
  funext a; match a with | ⟨0, _⟩ => rfl

theorem idx_c2v5 (R : Fin 8192) : idx_main_call2_v5 (ix3 R (0 : Fin 1) (0 : Fin 1)) = ix2 R (0 : Fin 1) := by
  funext a; refine Fin.ext ?_
  match a with
  | ⟨0, _⟩ => show ((R.val * 1 + 0) * 1 + 0) / 1 = R.val; omega
  | ⟨1, _⟩ => rfl

theorem gidx_row (R : Fin 8192) : gidx (ix2 R (0 : Fin 1)) = ix3 R (0 : Fin 1) (0 : Fin 1) := by
  funext a; match a with | ⟨0, _⟩ => rfl | ⟨1, _⟩ => rfl | ⟨2, _⟩ => rfl

/-! ## The log-softmax, read at `(R, v)` -/

section Logits
variable (x0 : (⟨S8192x4096, .f32⟩ : BufTy).Contents (Elt Ideal)) (x1 : (⟨S32000x4096, .f32⟩ : BufTy).Contents (Elt Ideal))

/-- The logit at `(R, v)` is the inner product of row `R` of the activations and row `v` of the weights. -/
theorem logit_read (R : Fin 8192) (v : Fin 32000) :
    val_main_v0 (F := Ideal) x0 x1 (ix2 R v) = rowLogit x0 x1 R v.val := by
  rw [val_main_v0_apply, rowLogit_of_lt]
  refine Finset.sum_congr rfl fun k _ => ?_
  have el : lidx_main_v0 (ix2 R v) k = ix2 R k := funext fun a => by
    match a with | ⟨0, _⟩ => rfl | ⟨1, _⟩ => rfl
  have er : ridx_main_v0 (ix2 R v) k = ix2 v k := funext fun a => by
    match a with | ⟨0, _⟩ => rfl | ⟨1, _⟩ => rfl
  rw [el, er]

/-- The maximum the program subtracts from row `R` is the maximum, from -∞, of the row's logits. -/
theorem rowmax_target (R : Fin 8192) :
    val_main_call0_v2 (F := Ideal) x0 x1 (ix1 R) = prefMax (rowLogit x0 x1 R) 32000 := by
  rw [val_main_call0_v2_apply, val_main_call0_v1_apply, val_main_call0_cst_0_apply]
  unfold val_main_call0_v0
  rw [rowmax_read _ _ (fun i => (val_main_call0_cst_apply (F := Ideal) i).trans ofBits_neg_inf)]
  simp only [Ideal.maximumf_def, Ideal.ofBits_def]
  rw [ofBits_neg_inf, max_eq_right bot_le, prefMax_eq_fold_fin]
  refine congrArg (fun f => Finset.fold max ⊥ f (Finset.univ : Finset (Fin 32000))) (funext fun k => ?_)
  exact logit_read x0 x1 R k

/-- The shifted logit at `(R, v)`. -/
theorem shifted_read (R : Fin 8192) (v : Fin 32000) :
    val_main_call0_v5 (F := Ideal) x0 x1 (ix2 R v) = rowLogit x0 x1 R v.val - prefMax (rowLogit x0 x1 R) 32000 := by
  have e : idx_main_call0_v3 (idx_main_call0_v4 (ix2 R v)) = ix1 R := funext fun a => by
    match a with | ⟨0, _⟩ => rfl
  rw [val_main_call0_v5_apply, val_main_call0_v4_apply, val_main_call0_v3_apply, e, logit_read, rowmax_target]
  rfl

/-- The sum of the exponentials of the shifted logits of row `R`. -/
theorem expsum_target (R : Fin 8192) :
    val_main_call0_v7 (F := Ideal) x0 x1 (ix1 R) = prefExpSum (rowLogit x0 x1 R) 32000 := by
  rw [val_main_call0_v7_apply, val_main_call0_cst_1_apply, prefExpSum_eq_sum_fin]
  simp only [Ideal.ofBits_def]
  rw [ofBits_zero, EReal.coe_zero, zero_add]
  refine Finset.sum_congr rfl fun k _ => ?_
  have e : idx_main_call0_v7 (ix1 R) k = ix2 R k := funext fun a => by
    match a with | ⟨0, _⟩ => rfl | ⟨1, _⟩ => rfl
  rw [e, val_main_call0_v6_apply, shifted_read]
  rfl

/-- The log-softmax at `(R, v)`. -/
theorem logsoftmax_read (R : Fin 8192) (v : Fin 32000) :
    val_main_v1 (F := Ideal) x0 x1 (ix2 R v)
      = (rowLogit x0 x1 R v.val - prefMax (rowLogit x0 x1 R) 32000) - Ideal.log (prefExpSum (rowLogit x0 x1 R) 32000) := by
  have e : idx_main_call0_v8 (idx_main_call0_v10 (ix2 R v)) = ix1 R := funext fun a => by
    match a with | ⟨0, _⟩ => rfl
  rw [val_main_v1_apply, shifted_read, val_main_call0_v10_apply, val_main_call0_v9_apply, val_main_call0_v8_apply, e,
    expsum_target]
  simp only [Ideal.subf_def, Ideal.hostUnary_log_def]

end Logits

/-! ## The target column of a row whose target lies in the vocabulary -/

section Target
variable (x2 : (⟨S8192, .i32⟩ : BufTy).Contents (Elt Ideal)) (R : Fin 8192) (hR : (x2 (ix1 R)).toNat < 32000)
include hR

/-- Such a target is the same number read signed or unsigned. -/
theorem toInt_target : (x2 (ix1 R)).toInt = ((x2 (ix1 R)).toNat : Int) :=
  BitVec.toInt_eq_toNat_of_lt (by have h := hR; show 2 * (x2 (ix1 R)).toNat < 4294967296; omega)

/-- It is not the ignored label. -/
theorem valid_target : val_main_v3 (F := Ideal) x2 (ix1 R) = 1#1 := by
  rw [val_main_v3_apply, val_main_v2_apply, val_main_c_apply]
  refine IntOp.cmpi_ne.mpr fun h => ?_
  rw [h] at hR
  exact absurd hR (by decide)

/-- So it is kept … -/
theorem safe_target : val_main_v4 (F := Ideal) x2 (ix1 R) = x2 (ix1 R) := by
  rw [val_main_v4_apply, valid_target x2 R hR, select_one]

theorem col_target : val_main_v5 (F := Ideal) x2 (ix2 R (0 : Fin 1)) = x2 (ix1 R) := by
  rw [val_main_v5_apply, idx_v5, safe_target x2 R hR]

/-- … and, not being negative, it is not wrapped. -/
theorem wrapped_target : val_main_call2_v4 (F := Ideal) x2 (ix2 R (0 : Fin 1)) = x2 (ix1 R) := by
  rw [val_main_call2_v4_apply, val_main_call2_v1_apply, col_target x2 R hR, val_main_call2_v0_apply, val_main_call2_c_apply]
  have h0 : IntOp.cmpi .slt (x2 (ix1 R)) 0#32 = 0#1 := by
    refine eq_zero_of_ne_one fun h => ?_
    have hlt := IntOp.cmpi_slt.mp h
    have hz : (0#32 : BitVec 32).toInt = 0 := by decide
    rw [toInt_target x2 R hR, hz] at hlt
    omega
  rw [h0, select_zero]

theorem start_target : val_main_call2_v5 (F := Ideal) x2 (ix3 R (0 : Fin 1) (0 : Fin 1)) = x2 (ix1 R) := by
  rw [val_main_call2_v5_apply, idx_c2v5, wrapped_target x2 R hR]

/-- It passes the range test `0 ≤ · ≤ 31999`. -/
theorem inrange_target : val_main_call2_v12 (F := Ideal) x2 (ix2 R (0 : Fin 1)) = 1#1 := by
  unfold val_main_call2_v12
  rw [and_read _ _ (fun i => val_main_call2_c_3_apply (F := Ideal) i)]
  show val_main_call2_v11 (F := Ideal) x2 (ix3 R (0 : Fin 1) (0 : Fin 1)) = 1#1
  rw [val_main_call2_v11_apply, val_main_call2_v7_apply, val_main_call2_v10_apply, start_target x2 R hR,
    val_main_call2_v6_apply, val_main_call2_c_2_apply, val_main_call2_v9_apply, val_main_call2_v8_apply,
    val_main_call2_c_1_apply]
  have hz : (0#32 : BitVec 32).toInt = 0 := by decide
  have hm : (31999#32 : BitVec 32).toInt = 31999 := by decide
  refine IntOp.andi_eq_one.mpr ⟨IntOp.cmpi_sge.mpr ?_, IntOp.cmpi_sle.mpr ?_⟩
  · rw [toInt_target x2 R hR, hz]; omega
  · rw [toInt_target x2 R hR, hm]; omega

end Target

/-- The gather at row `R` reads the log-softmax at the row's target column. -/
theorem gathered_target (x0 : (⟨S8192x4096, .f32⟩ : BufTy).Contents (Elt Ideal)) (x1 : (⟨S32000x4096, .f32⟩ : BufTy).Contents (Elt Ideal))
    (x2 : (⟨S8192, .i32⟩ : BufTy).Contents (Elt Ideal)) (R : Fin 8192) (hR : (x2 (ix1 R)).toNat < 32000) :
    val_main_call2_v13 (F := Ideal) x0 x1 x2 (ix2 R (0 : Fin 1))
      = val_main_v1 (F := Ideal) x0 x1 (ix2 R (⟨(x2 (ix1 R)).toNat, hR⟩ : Fin 32000)) := by
  unfold val_main_call2_v13
  rw [gather_read]
  refine congrArg (val_main_v1 (F := Ideal) x0 x1) (funext fun a => Fin.ext ?_)
  match a with
  | ⟨0, _⟩ => rfl
  | ⟨1, _⟩ =>
    show min (val_main_call2_v5 (F := Ideal) x2 (gidx (ix2 R (0 : Fin 1)))).toInt.toNat 31999 = (x2 (ix1 R)).toNat
    rw [gidx_row, start_target x2 R hR, toInt_target x2 R hR]
    omega

/-- The program's result is the masked mean of the per-row losses it computes (its value `%8`). -/
theorem ref_result (x0 : (⟨S8192x4096, .f32⟩ : BufTy).Contents (Elt Ideal)) (x1 : (⟨S32000x4096, .f32⟩ : BufTy).Contents (Elt Ideal))
    (x2 : (⟨S8192, .i32⟩ : BufTy).Contents (Elt Ideal)) (i : S_.Idx) :
    val_main_v14 (F := Ideal) x0 x1 x2 i = maskedMean x2 (val_main_v8 (F := Ideal) x0 x1 x2) := by
  have h1 : ∀ j : S8192.Idx, val_main_v9 (F := Ideal) x0 x1 x2 j
      = Scalar.select (IntOp.cmpi .ne (x2 j) 4294967196#32) (val_main_v8 (F := Ideal) x0 x1 x2 j) (Ideal.ofBits .f32 0x00000000#32) := by
    intro j
    rw [val_main_v9_apply, val_main_v3_apply, val_main_v2_apply, val_main_c_apply, val_main_call3_v1_apply,
      val_main_call3_v0_apply, val_main_cst_apply]
    rfl
  have h2 : ∀ j : S8192.Idx, val_main_v10 (F := Ideal) x2 j
      = FloatOps.uitofp (F := Ideal) .f32 (IntOp.cmpi .ne (x2 j) 4294967196#32) := by
    intro j
    rw [val_main_v10_apply, val_main_v3_apply, val_main_v2_apply, val_main_c_apply]
  rw [val_main_v14_apply, val_main_v13_apply, val_main_v12_apply, val_main_v11_apply, val_main_cst_3_apply,
    val_main_cst_1_apply, val_main_cst_2_apply]
  simp only [h1, h2]
  rfl

/-- For finite inputs, the loss of a row whose target is a column of the vocabulary is the negated
    log-softmax of the row's logits at that column. -/
theorem ref_nll (x0 : (⟨S8192x4096, .f32⟩ : BufTy).Contents (Elt Ideal)) (x1 : (⟨S32000x4096, .f32⟩ : BufTy).Contents (Elt Ideal))
    (x2 : (⟨S8192, .i32⟩ : BufTy).Contents (Elt Ideal))
    (hx : ∀ i, IsReal (x0 i)) (hw : ∀ i, IsReal (x1 i))
    (R : Fin 8192) (hR : (x2 (ix1 R)).toNat < 32000) :
    val_main_v8 (F := Ideal) x0 x1 x2 (ix1 R) = rowNll x0 x1 x2 R := by
  rw [val_main_v8_apply, val_main_v7_apply, idx_v7, val_main_v6_apply, inrange_target x2 R hR, select_one,
    gathered_target x0 x1 x2 R hR, logsoftmax_read]
  rfl

end Cert.ReferenceIdeal.RefSide

end
-- ==== Proof.RefRunH.lean ====
/-
  The reference program's run, read: every weakly fair execution of its 60 host operations terminates with the
  result at the value the operations compute from the arguments — the composition of the per-operation stages —
  and the arguments unchanged.
-/
import proofs.«418497_j11922829213914_3_alg».proof.Proof.RefRunP
import proofs.«418497_j11922829213914_3_alg».proof.Proof.RefReadP
import Idealize.ShloMosaic.Lib.StableHlo.Run

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## One operation at a time

Each lemma peels the first operation off a line: to show what the line leaves at a buffer it is enough to show it
for the rest of the line run from ANY contents that hold, at the operation's result buffer, the operation's
function of what the old contents held at its operands, and elsewhere what the old contents held. Contents are
compared heterogeneously, so that a typed reference's (whose contents are moved along its type equation) and a
bare reference's read alike. -/

section Steps

variable {tp : Topo} {sg : RefSig} {Vl : EltTy → Type}

theorem step_nullary {y : Ref sg .tc} {v : y.ty.Contents Vl} {hy} {rest : List (HloOp tp sg Vl)}
    {V : Valuation tp sg Vl} {r : DevRef tp sg} {g : r.ty.Contents Vl}
    (H : ∀ V' : Valuation tp sg Vl, HEq (V' (Proc.devRef .tc y)) v →
      (∀ r' : Ref sg .tc, r' ≠ y → V' (Proc.devRef .tc r') = V (Proc.devRef .tc r')) → after rest V' r = g) :
    after (nullary y v hy :: rest) V r = g :=
  H _ (heq_of_eq (nullary_result y v hy V)) (fun _ h => nullary_result_ne y v hy V h)

theorem step_unary {x y : Ref sg .tc} {f : x.ty.Contents Vl → y.ty.Contents Vl} {hx hy} {rest : List (HloOp tp sg Vl)}
    {V : Valuation tp sg Vl} {r : DevRef tp sg} {g : r.ty.Contents Vl}
    (H : ∀ V' : Valuation tp sg Vl,
      (∀ vx : x.ty.Contents Vl, HEq (V (Proc.devRef .tc x)) vx → HEq (V' (Proc.devRef .tc y)) (f vx)) →
      (∀ r' : Ref sg .tc, r' ≠ y → V' (Proc.devRef .tc r') = V (Proc.devRef .tc r')) → after rest V' r = g) :
    after (unary x y f hx hy :: rest) V r = g :=
  H _ (fun _ e => eq_of_heq e ▸ heq_of_eq (unary_result x y f hx hy V)) (fun _ h => unary_result_ne x y f hx hy V h)

theorem step_binary {a b y : Ref sg .tc} {f : a.ty.Contents Vl → b.ty.Contents Vl → y.ty.Contents Vl} {ha hb hy}
    {rest : List (HloOp tp sg Vl)} {V : Valuation tp sg Vl} {r : DevRef tp sg} {g : r.ty.Contents Vl}
    (H : ∀ V' : Valuation tp sg Vl,
      (∀ (va : a.ty.Contents Vl) (vb : b.ty.Contents Vl), HEq (V (Proc.devRef .tc a)) va → HEq (V (Proc.devRef .tc b)) vb →
        HEq (V' (Proc.devRef .tc y)) (f va vb)) →
      (∀ r' : Ref sg .tc, r' ≠ y → V' (Proc.devRef .tc r') = V (Proc.devRef .tc r')) → after rest V' r = g) :
    after (binary a b y f ha hb hy :: rest) V r = g :=
  H _ (fun _ _ ea eb => eq_of_heq ea ▸ eq_of_heq eb ▸ heq_of_eq (binary_result a b y f ha hb hy V))
    (fun _ h => binary_result_ne a b y f ha hb hy V h)

theorem step_reshape {x y : Ref sg .tc} {he : x.ty.elt = y.ty.elt} {hn : x.ty.shape.ShapeCasts y.ty.shape} {hx hy}
    {rest : List (HloOp tp sg Vl)} {V : Valuation tp sg Vl} {r : DevRef tp sg} {g : r.ty.Contents Vl}
    (H : ∀ V' : Valuation tp sg Vl,
      (∀ vx : x.ty.Contents Vl, HEq (V (Proc.devRef .tc x)) vx →
        HEq (V' (Proc.devRef .tc y)) (fun i => he ▸ shapeCast y.ty.shape vx hn i : y.ty.Contents Vl)) →
      (∀ r' : Ref sg .tc, r' ≠ y → V' (Proc.devRef .tc r') = V (Proc.devRef .tc r')) → after rest V' r = g) :
    after (reshape x y he hn hx hy :: rest) V r = g :=
  H _ (fun _ e => eq_of_heq e ▸ heq_of_eq (reshape_result x y he hn hx hy V)) (fun _ h => reshape_result_ne x y he hn hx hy V h)

variable {Tx Ta Tb Tc Ty : BufTy}

theorem step_tnullary {y : TRef sg Ty} {v : Ty.Contents Vl} {rest : List (HloOp tp sg Vl)}
    {V : Valuation tp sg Vl} {r : DevRef tp sg} {g : r.ty.Contents Vl}
    (H : ∀ V' : Valuation tp sg Vl, HEq (V' (Proc.devRef .tc y.ref)) v →
      (∀ r' : Ref sg .tc, r' ≠ y.ref → V' (Proc.devRef .tc r') = V (Proc.devRef .tc r')) → after rest V' r = g) :
    after (TRef.nullary y v :: rest) V r = g :=
  H _ ((heq_of_eq (nullary_result y.ref (y.toBuf v) y.dev V)).trans (cast_heq _ _))
    (fun _ h => nullary_result_ne y.ref (y.toBuf v) y.dev V h)

theorem step_tunary {x : TRef sg Tx} {y : TRef sg Ty} {f : Tx.Contents Vl → Ty.Contents Vl}
    {rest : List (HloOp tp sg Vl)} {V : Valuation tp sg Vl} {r : DevRef tp sg} {g : r.ty.Contents Vl}
    (H : ∀ V' : Valuation tp sg Vl,
      (∀ vx : Tx.Contents Vl, HEq (V (Proc.devRef .tc x.ref)) vx → HEq (V' (Proc.devRef .tc y.ref)) (f vx)) →
      (∀ r' : Ref sg .tc, r' ≠ y.ref → V' (Proc.devRef .tc r') = V (Proc.devRef .tc r')) → after rest V' r = g) :
    after (TRef.unary x y f :: rest) V r = g :=
  H _ (fun vx hx => (heq_of_eq (unary_result x.ref y.ref _ x.dev y.dev V)).trans
      ((cast_heq _ _).trans (heq_of_eq (congrArg f (eq_of_heq ((cast_heq _ _).trans hx))))))
    (fun _ h => unary_result_ne x.ref y.ref _ x.dev y.dev V h)

theorem step_tbinary {a : TRef sg Ta} {b : TRef sg Tb} {y : TRef sg Ty} {f : Ta.Contents Vl → Tb.Contents Vl → Ty.Contents Vl}
    {rest : List (HloOp tp sg Vl)} {V : Valuation tp sg Vl} {r : DevRef tp sg} {g : r.ty.Contents Vl}
    (H : ∀ V' : Valuation tp sg Vl,
      (∀ (va : Ta.Contents Vl) (vb : Tb.Contents Vl), HEq (V (Proc.devRef .tc a.ref)) va → HEq (V (Proc.devRef .tc b.ref)) vb →
        HEq (V' (Proc.devRef .tc y.ref)) (f va vb)) →
      (∀ r' : Ref sg .tc, r' ≠ y.ref → V' (Proc.devRef .tc r') = V (Proc.devRef .tc r')) → after rest V' r = g) :
    after (TRef.binary a b y f :: rest) V r = g :=
  H _ (fun va vb ha hb => (heq_of_eq (binary_result a.ref b.ref y.ref _ a.dev b.dev y.dev V)).trans
      ((cast_heq _ _).trans (heq_of_eq (congrArg₂ f (eq_of_heq ((cast_heq _ _).trans ha)) (eq_of_heq ((cast_heq _ _).trans hb))))))
    (fun _ h => binary_result_ne a.ref b.ref y.ref _ a.dev b.dev y.dev V h)

theorem step_tternary {c : TRef sg Tc} {a : TRef sg Ta} {b : TRef sg Tb} {y : TRef sg Ty}
    {f : Tc.Contents Vl → Ta.Contents Vl → Tb.Contents Vl → Ty.Contents Vl}
    {rest : List (HloOp tp sg Vl)} {V : Valuation tp sg Vl} {r : DevRef tp sg} {g : r.ty.Contents Vl}
    (H : ∀ V' : Valuation tp sg Vl,
      (∀ (vc : Tc.Contents Vl) (va : Ta.Contents Vl) (vb : Tb.Contents Vl), HEq (V (Proc.devRef .tc c.ref)) vc →
        HEq (V (Proc.devRef .tc a.ref)) va → HEq (V (Proc.devRef .tc b.ref)) vb → HEq (V' (Proc.devRef .tc y.ref)) (f vc va vb)) →
      (∀ r' : Ref sg .tc, r' ≠ y.ref → V' (Proc.devRef .tc r') = V (Proc.devRef .tc r')) → after rest V' r = g) :
    after (TRef.ternary c a b y f :: rest) V r = g :=
  H _ (fun vc va vb hc ha hb => by
      have ec : c.ofBuf (V (Proc.devRef .tc c.ref)) = vc := eq_of_heq ((cast_heq _ _).trans hc)
      have ea : a.ofBuf (V (Proc.devRef .tc a.ref)) = va := eq_of_heq ((cast_heq _ _).trans ha)
      have eb : b.ofBuf (V (Proc.devRef .tc b.ref)) = vb := eq_of_heq ((cast_heq _ _).trans hb)
      refine (heq_of_eq (ternary_result c.ref a.ref b.ref y.ref _ c.dev a.dev b.dev y.dev V)).trans
        ((cast_heq _ _).trans (heq_of_eq ?_))
      rw [ec, ea, eb])
    (fun _ h => ternary_result_ne a.ref b.ref c.ref y.ref _ c.dev a.dev b.dev y.dev V h)

theorem step_treshape {x : TRef sg Tx} {y : TRef sg Ty} {he : Tx.elt = Ty.elt} {hn : Tx.shape.ShapeCasts Ty.shape}
    {rest : List (HloOp tp sg Vl)} {V : Valuation tp sg Vl} {r : DevRef tp sg} {g : r.ty.Contents Vl}
    (H : ∀ V' : Valuation tp sg Vl,
      (∀ vx : Tx.Contents Vl, HEq (V (Proc.devRef .tc x.ref)) vx →
        HEq (V' (Proc.devRef .tc y.ref)) (fun i => he ▸ shapeCast Ty.shape vx hn i : Ty.Contents Vl)) →
      (∀ r' : Ref sg .tc, r' ≠ y.ref → V' (Proc.devRef .tc r') = V (Proc.devRef .tc r')) → after rest V' r = g) :
    after (TRef.reshape x y he hn :: rest) V r = g := by
  obtain ⟨rx, ex, dx, ux⟩ := x
  obtain ⟨ry, ey, dy, uy⟩ := y
  subst ex
  subst ey
  exact H _ (fun vx hx => by
      obtain rfl := eq_of_heq hx
      exact heq_of_eq (reshape_result rx ry _ _ _ _ V))
    (fun _ h => reshape_result_ne rx ry _ _ _ _ V h)

end Steps

variable {F : FTy → Type} [FloatOps F]

/-- What the contents `V` hold at the TensorCore reference `b`. -/
abbrev At (V : Valuation τ sig (Elt F)) (b : Ref sig .tc) : (Proc.devRef (τ := τ) .tc b).ty.Contents (Elt F) :=
  V (Proc.devRef .tc b)

set_option hygiene false in
/-- Peel the line's first operation and name the contents after it: `hy` says what its result buffer then holds
    (from what its operands held), `hne` that every other buffer holds what it held. -/
local macro "peel " V:ident : tactic => `(tactic| with_reducible first
  | refine step_tnullary (fun $V hy hne => ?_) | refine step_tunary (fun $V hy hne => ?_)
  | refine step_tbinary (fun $V hy hne => ?_) | refine step_tternary (fun $V hy hne => ?_)
  | refine step_treshape (fun $V hy hne => ?_) | refine step_nullary (fun $V hy hne => ?_)
  | refine step_unary (fun $V hy hne => ?_) | refine step_binary (fun $V hy hne => ?_)
  | refine step_reshape (fun $V hy hne => ?_))

/-- Carry the named facts across the operation just peeled: it writes none of their buffers. -/
local syntax "keep " "[" ident,* "]" : tactic
set_option hygiene false in
local macro_rules
  | `(tactic| keep []) => `(tactic| skip)
  | `(tactic| keep [$h]) => `(tactic| replace $h := (hne _ (by decide)).trans $h)
  | `(tactic| keep [$h, $hs,*]) => `(tactic| (replace $h := (hne _ (by decide)).trans $h; keep [$hs,*]))

set_option hygiene false in
/-- The peeled operation's result, from the facts about its operands. -/
local macro "res0" : term => `(eq_of_heq hy)
set_option hygiene false in
local macro "res1 " a:term:max : term => `(eq_of_heq (hy _ (heq_of_eq $a)))
set_option hygiene false in
local macro "res2 " a:term:max b:term:max : term => `(eq_of_heq (hy _ _ (heq_of_eq $a) (heq_of_eq $b)))
set_option hygiene false in
local macro "res3 " c:term:max a:term:max b:term:max : term =>
  `(eq_of_heq (hy _ _ _ (heq_of_eq $c) (heq_of_eq $a) (heq_of_eq $b)))

/-- What the 60 operations leave at the result buffer, from any contents holding `x0`, `x1`, `x2` at the three
    arguments: the last stage's value of them. One operation at a time: each result buffer then holds its stage's
    value (a stage is by definition its operation's function of the earlier stages), and a buffer still to be read
    keeps what it held across the operations that do not write it. -/
theorem after_ops_main_v14 (V0 : Valuation τ sig (Elt F))
    (x0 : (⟨S8192x4096, .f32⟩ : BufTy).Contents (Elt F)) (x1 : (⟨S32000x4096, .f32⟩ : BufTy).Contents (Elt F))
    (x2 : (⟨S8192, .i32⟩ : BufTy).Contents (Elt F))
    (a0 : At V0 main_arg0 = x0) (a1 : At V0 main_arg1 = x1) (a2 : At V0 main_arg2 = x2) :
    after (ops (F := F)) V0 (Proc.devRef .tc main_v14) = val_main_v14 (F := F) x0 x1 x2 := by
  -- the logits
  peel V1
  have v0 : At V1 main_v0 = val_main_v0 x0 x1 := res2 a0 a1
  keep [a2]
  -- the log-softmax: the row maximum
  peel V2
  have c0c : At V2 main_call0_cst = val_main_call0_cst := res0
  keep [a2, v0]
  peel V3
  have c0v0 : At V3 main_call0_v0 = val_main_call0_v0 x0 x1 := res2 v0 c0c
  keep [a2, v0]
  peel V4
  have c0c0 : At V4 main_call0_cst_0 = val_main_call0_cst_0 := res0
  keep [a2, v0, c0v0]
  peel V5
  have c0v1 : At V5 main_call0_v1 = val_main_call0_v1 := res1 c0c0
  keep [a2, v0, c0v0]
  peel V6
  have c0v2 : At V6 main_call0_v2 = val_main_call0_v2 x0 x1 := res2 c0v1 c0v0
  keep [a2, v0]
  peel V7
  have c0v3 : At V7 main_call0_v3 = val_main_call0_v3 x0 x1 := res1 c0v2
  keep [a2, v0]
  peel V8
  have c0v4 : At V8 main_call0_v4 = val_main_call0_v4 x0 x1 := res1 c0v3
  keep [a2, v0]
  -- the shifted logits, their exponentials, the row sums and their logarithms
  peel V9
  have c0v5 : At V9 main_call0_v5 = val_main_call0_v5 x0 x1 := res2 v0 c0v4
  keep [a2]
  peel V10
  have c0v6 : At V10 main_call0_v6 = val_main_call0_v6 x0 x1 := res1 c0v5
  keep [a2, c0v5]
  peel V11
  have c0c1 : At V11 main_call0_cst_1 = val_main_call0_cst_1 := res0
  keep [a2, c0v5, c0v6]
  peel V12
  have c0v7 : At V12 main_call0_v7 = val_main_call0_v7 x0 x1 := res2 c0v6 c0c1
  keep [a2, c0v5]
  peel V13
  have c0v8 : At V13 main_call0_v8 = val_main_call0_v8 x0 x1 := res1 c0v7
  keep [a2, c0v5]
  peel V14
  have c0v9 : At V14 main_call0_v9 = val_main_call0_v9 x0 x1 := res1 c0v8
  keep [a2, c0v5]
  peel V15
  have c0v10 : At V15 main_call0_v10 = val_main_call0_v10 x0 x1 := res1 c0v9
  keep [a2, c0v5]
  peel V16
  have v1 : At V16 main_v1 = val_main_v1 x0 x1 := res2 c0v5 c0v10
  keep [a2]
  -- the mask of the rows that count
  peel V17
  have c : At V17 main_c = val_main_c := res0
  keep [a2, v1]
  peel V18
  have v2 : At V18 main_v2 = val_main_v2 := res1 c
  keep [a2, v1]
  peel V19
  have v3 : At V19 main_v3 = val_main_v3 x2 := res2 a2 v2
  keep [a2, v1]
  -- the targets with the ignored label replaced by column 0
  peel V20
  have cz : At V20 main_c_0 = val_main_c_0 := res0
  keep [a2, v1, v3]
  peel V21
  have c1v0 : At V21 main_call1_v0 = val_main_call1_v0 := res1 cz
  keep [a2, v1, v3]
  peel V22
  have c1v1 : At V22 main_call1_v1 = val_main_call1_v1 := res1 c1v0
  keep [a2, v1, v3]
  peel V23
  have v4 : At V23 main_v4 = val_main_v4 x2 := res3 v3 a2 c1v1
  keep [v1, v3]
  peel V24
  have v5 : At V24 main_v5 = val_main_v5 x2 := res1 v4
  keep [v1, v3]
  -- the gather along the vocabulary axis: the index normalized, reshaped and range-checked
  peel V25
  have c2c : At V25 main_call2_c = val_main_call2_c := res0
  keep [v1, v3, v5]
  peel V26
  have c2v0 : At V26 main_call2_v0 = val_main_call2_v0 := res1 c2c
  keep [v1, v3, v5]
  peel V27
  have c2v1 : At V27 main_call2_v1 = val_main_call2_v1 x2 := res2 v5 c2v0
  keep [v1, v3, v5]
  peel V28
  have c2c0 : At V28 main_call2_c_0 = val_main_call2_c_0 := res0
  keep [v1, v3, v5, c2v1]
  peel V29
  have c2v2 : At V29 main_call2_v2 = val_main_call2_v2 := res1 c2c0
  keep [v1, v3, v5, c2v1]
  peel V30
  have c2v3 : At V30 main_call2_v3 = val_main_call2_v3 x2 := res2 v5 c2v2
  keep [v1, v3, v5, c2v1]
  peel V31
  have c2v4 : At V31 main_call2_v4 = val_main_call2_v4 x2 := res3 c2v1 c2v3 v5
  keep [v1, v3]
  peel V32
  have c2v5 : At V32 main_call2_v5 = val_main_call2_v5 x2 := res1 c2v4
  keep [v1, v3]
  peel V33
  have c2c1 : At V33 main_call2_c_1 = val_main_call2_c_1 := res0
  keep [v1, v3, c2v5]
  peel V34
  have c2c2 : At V34 main_call2_c_2 = val_main_call2_c_2 := res0
  keep [v1, v3, c2v5, c2c1]
  peel V35
  have c2v6 : At V35 main_call2_v6 = val_main_call2_v6 := res1 c2c2
  keep [v1, v3, c2v5, c2c1]
  peel V36
  have c2v7 : At V36 main_call2_v7 = val_main_call2_v7 x2 := res2 c2v5 c2v6
  keep [v1, v3, c2v5, c2c1]
  peel V37
  have c2v8 : At V37 main_call2_v8 = val_main_call2_v8 := res1 c2c1
  keep [v1, v3, c2v5, c2v7]
  peel V38
  have c2v9 : At V38 main_call2_v9 = val_main_call2_v9 := res1 c2v8
  keep [v1, v3, c2v5, c2v7]
  peel V39
  have c2v10 : At V39 main_call2_v10 = val_main_call2_v10 x2 := res2 c2v5 c2v9
  keep [v1, v3, c2v5, c2v7]
  peel V40
  have c2v11 : At V40 main_call2_v11 = val_main_call2_v11 x2 := res2 c2v7 c2v10
  keep [v1, v3, c2v5]
  peel V41
  have c2c3 : At V41 main_call2_c_3 = val_main_call2_c_3 := res0
  keep [v1, v3, c2v5, c2v11]
  peel V42
  have c2v12 : At V42 main_call2_v12 = val_main_call2_v12 x2 := res2 c2v11 c2c3
  keep [v1, v3, c2v5]
  peel V43
  have c2v13 : At V43 main_call2_v13 = val_main_call2_v13 x0 x1 x2 := res2 v1 c2v5
  keep [v3, c2v12]
  peel V44
  have c2cs : At V44 main_call2_cst = val_main_call2_cst := res0
  keep [v3, c2v12, c2v13]
  peel V45
  have c2v14 : At V45 main_call2_v14 = val_main_call2_v14 := res1 c2cs
  keep [v3, c2v12, c2v13]
  peel V46
  have v6 : At V46 main_v6 = val_main_v6 x0 x1 x2 := res3 c2v12 c2v13 c2v14
  keep [v3]
  -- the per-row losses, zero where the row is ignored
  peel V47
  have v7 : At V47 main_v7 = val_main_v7 x0 x1 x2 := res1 v6
  keep [v3]
  peel V48
  have v8 : At V48 main_v8 = val_main_v8 x0 x1 x2 := res1 v7
  keep [v3]
  peel V49
  have cs : At V49 main_cst = val_main_cst := res0
  keep [v3, v8]
  peel V50
  have c3v0 : At V50 main_call3_v0 = val_main_call3_v0 := res1 cs
  keep [v3, v8]
  peel V51
  have c3v1 : At V51 main_call3_v1 = val_main_call3_v1 := res1 c3v0
  keep [v3, v8]
  peel V52
  have v9 : At V52 main_v9 = val_main_v9 x0 x1 x2 := res3 v3 v8 c3v1
  keep [v3]
  -- the count of the rows that count, at least one
  peel V53
  have v10 : At V53 main_v10 = val_main_v10 x2 := res1 v3
  keep [v9]
  peel V54
  have cs1 : At V54 main_cst_1 = val_main_cst_1 := res0
  keep [v9, v10]
  peel V55
  have v11 : At V55 main_v11 = val_main_v11 x2 := res2 v10 cs1
  keep [v9]
  peel V56
  have cs2 : At V56 main_cst_2 = val_main_cst_2 := res0
  keep [v9, v11]
  peel V57
  have v12 : At V57 main_v12 = val_main_v12 x2 := res2 v11 cs2
  keep [v9]
  -- the sum of the losses over the count
  peel V58
  have cs3 : At V58 main_cst_3 = val_main_cst_3 := res0
  keep [v9, v12]
  peel V59
  have v13 : At V59 main_v13 = val_main_v13 x0 x1 x2 := res2 v9 cs3
  keep [v12]
  peel V60
  have v14 : At V60 main_v14 = val_main_v14 x0 x1 x2 := res2 v13 v12
  exact v14

/-- On every device, from any memory with zero counters: every weakly fair execution of @main terminates with the
    result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = val_main_v14 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c => ⟨(h c main_v14).trans (after_ops_main_v14 _ _ _ _ rfl rfl rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.lean ====
/-
  The certificate of a fused language-model head with cross entropy: `logits = x · wᵀ`, the loss of a row the
  negated log-softmax of its logits at the row's target, the result the mean of the losses over the rows whose
  target is not the ignored label `-100`.

  The kernel never forms the logits: it sweeps the vocabulary in 50 blocks of 640 columns per block of 512 rows and
  carries a running maximum, a running sum of exponentials shifted by that maximum (rescaled by
  `e^(old max - new max)` whenever the maximum moves) and the logit picked at the target column; after the last
  vocabulary block a row's loss is `max + log(sum) - picked`. The reference forms the logits, subtracts the row
  maximum, exponentiates, sums, takes the logarithm, and gathers the log-softmax at the target. Over the finite
  reals the two are one number per row: `M + log Σ e^(s - M) - s_t = -((s_t - M) - log Σ e^(s - M))`.

  The statement is proved under the precondition that the float inputs are finite (the rescaling law needs it:
  over the extended reals `e^(M - M') · Σ e^(s - M) = Σ e^(s - M')` fails at infinities) and that every target is
  the ignored label or a column of the vocabulary: outside that range the reference indexes out of range or wraps a
  negative column around, and the kernel picks nothing.

  The three frames: the two kernel programs' from their generated frame certificates, the reference's its run with
  the result dropped. The idealization rewrote nothing, so `preserves` is `True`.
-/
import proofs.«418497_j11922829213914_3_alg».proof.Defs
import proofs.«418497_j11922829213914_3_alg».proof.Proof.Gen.Kernel
import proofs.«418497_j11922829213914_3_alg».proof.Proof.Gen.Kernel.Frame
import proofs.«418497_j11922829213914_3_alg».proof.Proof.Gen.KernelIdeal
import proofs.«418497_j11922829213914_3_alg».proof.Proof.Gen.KernelIdeal.Frame
import proofs.«418497_j11922829213914_3_alg».proof.Proof.Gen.ReferenceIdeal
import proofs.«418497_j11922829213914_3_alg».proof.Proof.Gen.Pre_finite_inputs
import proofs.«418497_j11922829213914_3_alg».proof.Proof.PreDecode
import proofs.«418497_j11922829213914_3_alg».proof.Proof.KRun
import proofs.«418497_j11922829213914_3_alg».proof.Proof.RefSide
import proofs.«418497_j11922829213914_3_alg».proof.Proof.RefRunH
import Idealize.ShloMosaic.Adequacy
import Idealize.ShloMosaic.Init

noncomputable section

namespace Cert.Proof

open Idealize.ShloMosaic Idealize.ShloMosaic.ValueIdx Idealize.SL.Sem
open Cert.Common Cert.LibReal

/-- The kernel program as printed runs and keeps its arguments: its generated frame certificate. -/
theorem frame_p : @Cert.frame_Kernel Cert.Kernel.Gen.facts Cert.Pre_finite_inputs.Gen.facts :=
  fun m ρ _ => Cert.Kernel.Gen.frame m ρ

/-- The idealized kernel program likewise. -/
theorem frame_pi : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunH.run (F := Ideal) m ρ)

/-- Both idealized programs end with the masked mean of the same per-row losses. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hdec := fun c => @Cert.PreDecode.of_pre Cert.Pre_finite_inputs.Gen.facts _ _ _ (hpre c)
  have hx : ∀ c i, IsReal (Cert.KernelIdeal.Inv.xs m c i) := fun c i => (hdec c).1 i
  have hw : ∀ c i, IsReal (Cert.KernelIdeal.Inv.ws m c i) := fun c i => (hdec c).2.1 i
  refine ⟨fun c => Cert.KernelIdeal.Run.result m c, Cert.KernelIdeal.Run.run m ρ hx hw, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  funext i
  rw [Cert.ReferenceIdeal.RefSide.ref_result]
  refine maskedMean_congr _ _ _ fun j hj => ?_
  obtain ⟨R, rfl⟩ : ∃ R : Fin 8192, j = ix1 R := ⟨j 0, eq_ix1 j⟩
  have hR : (Cert.KernelIdeal.Inv.ts m c (ix1 R)).toNat < 32000 := ((hdec c).2.2 (ix1 R)).resolve_left hj
  rw [Cert.ReferenceIdeal.RefSide.ref_nll _ _ _ (hx c) (hw c) R hR]
  exact (Cert.KernelIdeal.Run.lossCol_eq_rowNll m hx hw c R hR).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
